-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x65536 : Shape := ⟨3, ![16, 64, 65536]⟩
abbrev S16x65536x3 : Shape := ⟨3, ![16, 65536, 3]⟩
abbrev S_ : Shape := ⟨0, ![]⟩

class Facts : Prop where
  bcast_S_S16x64x65536 : S_.BroadcastsInDim S16x64x65536 (![] : Fin 0 → Fin S16x64x65536.rank)
  reducesTo_S16x64x65536_S_d0_1_2 : S16x64x65536.ReducesTo [0, 1, 2] S_
  h_S_ : 0 < S_.numel
  bcast_S_S16x65536x3 : S_.BroadcastsInDim S16x65536x3 (![] : Fin 0 → Fin S16x65536x3.rank)
  reducesTo_S16x65536x3_S_d0_1_2 : S16x65536x3.ReducesTo [0, 1, 2] S_

variable [Facts]

def fn {F : FTy → Type} [FloatOps F] (main_arg0 : FVec F S16x64x65536 .f32) (main_arg1 : FVec F S16x65536x3 .f32) : IVec S_ 1 :=
  let main_v0 : FVec F S16x64x65536 .f32 := Host.absf main_arg0
  let main_cst : FVec F S_ .f32 := constant S_ .f32 0x7F800000#32
  let main_v1 : FVec F S16x64x65536 .f32 := broadcastInDim S16x64x65536 ![] bcast_S_S16x64x65536 main_cst
  let main_v2 : IVec S16x64x65536 1 := cmpf .olt main_v0 main_v1
  let main_c : IVec S_ 1 := constantI S_ 1 1#1
  let main_v3 : IVec S_ 1 := (fun x v => Host.reduce IntOp.andi x v reducesTo_S16x64x65536_S_d0_1_2 h_S_) main_v2 main_c
  let main_v4 : FVec F S16x65536x3 .f32 := Host.absf main_arg1
  let main_cst_0 : FVec F S_ .f32 := constant S_ .f32 0x7F800000#32
  let main_v5 : FVec F S16x65536x3 .f32 := broadcastInDim S16x65536x3 ![] bcast_S_S16x65536x3 main_cst_0
  let main_v6 : IVec S16x65536x3 1 := cmpf .olt main_v4 main_v5
  let main_c_1 : IVec S_ 1 := constantI S_ 1 1#1
  let main_v7 : IVec S_ 1 := (fun x v => Host.reduce IntOp.andi x v reducesTo_S16x65536x3_S_d0_1_2 h_S_) main_v6 main_c_1
  let main_v8 : IVec S_ 1 := andi main_v3 main_v7
  main_v8
-- ==== Kernel.lean ====
abbrev S16x64x65536 : Shape := ⟨3, ![16, 64, 65536]⟩
abbrev S16x65536x3 : Shape := ⟨3, ![16, 65536, 3]⟩
abbrev S16x3x65536 : Shape := ⟨3, ![16, 3, 65536]⟩
abbrev S_ : Shape := ⟨0, ![]⟩
abbrev S16x3 : Shape := ⟨2, ![16, 3]⟩
abbrev S16x3x1 : Shape := ⟨3, ![16, 3, 1]⟩
abbrev S16x1x65536 : Shape := ⟨3, ![16, 1, 65536]⟩
abbrev S16x65536 : Shape := ⟨2, ![16, 65536]⟩
abbrev S16x65536x64 : Shape := ⟨3, ![16, 65536, 64]⟩
abbrev S16x65536x1 : Shape := ⟨3, ![16, 65536, 1]⟩
abbrev S16x65536x63 : Shape := ⟨3, ![16, 65536, 63]⟩
abbrev S16x65536x128 : Shape := ⟨3, ![16, 65536, 128]⟩
abbrev S16x32768x128 : Shape := ⟨3, ![16, 32768, 128]⟩
abbrev S1x4096x128 : Shape := ⟨3, ![1, 4096, 128]⟩
abbrev S1x1x4096 : Shape := ⟨3, ![1, 1, 4096]⟩
abbrev S1x2048x128 : Shape := ⟨3, ![1, 2048, 128]⟩
abbrev S2048x128 : Shape := ⟨2, ![2048, 128]⟩
abbrev S4096 : Shape := ⟨1, ![4096]⟩
abbrev S2048x4096 : Shape := ⟨2, ![2048, 4096]⟩
abbrev S1x4096 : Shape := ⟨2, ![1, 4096]⟩
abbrev S4096x128 : Shape := ⟨2, ![4096, 128]⟩
abbrev S16x32768x64 : Shape := ⟨3, ![16, 32768, 64]⟩
abbrev S16x32768x1 : Shape := ⟨3, ![16, 32768, 1]⟩
abbrev S16x32768 : Shape := ⟨2, ![16, 32768]⟩
abbrev S16x32x32x32x64 : Shape := ⟨5, ![16, 32, 32, 32, 64]⟩
abbrev S16x64x32x32x32 : Shape := ⟨5, ![16, 64, 32, 32, 32]⟩

abbrev nBuf : Space → Nat
  | .hbm => 64
  | .vmem => 7
  | .smem => 0
  | _ => 0

abbrev bufTy : (tb : Table) → Fin (tcTables nBuf tb) → BufTy
  | .hbm, ⟨0, _⟩ => ⟨S16x64x65536, .f32⟩
  | .hbm, ⟨1, _⟩ => ⟨S16x65536x3, .f32⟩
  | .hbm, ⟨2, _⟩ => ⟨S16x3x65536, .f32⟩
  | .hbm, ⟨3, _⟩ => ⟨S_, .f32⟩
  | .hbm, ⟨4, _⟩ => ⟨S16x3, .f32⟩
  | .hbm, ⟨5, _⟩ => ⟨S16x3x1, .f32⟩
  | .hbm, ⟨6, _⟩ => ⟨S_, .f32⟩
  | .hbm, ⟨7, _⟩ => ⟨S16x3x1, .f32⟩
  | .hbm, ⟨8, _⟩ => ⟨S16x3x1, .f32⟩
  | .hbm, ⟨9, _⟩ => ⟨S16x3x65536, .f32⟩
  | .hbm, ⟨10, _⟩ => ⟨S16x3x65536, .f32⟩
  | .hbm, ⟨11, _⟩ => ⟨S_, .f32⟩
  | .hbm, ⟨12, _⟩ => ⟨S16x3x65536, .f32⟩
  | .hbm, ⟨13, _⟩ => ⟨S16x3x65536, .f32⟩
  | .hbm, ⟨14, _⟩ => ⟨S_, .f32⟩
  | .hbm, ⟨15, _⟩ => ⟨S16x3x65536, .f32⟩
  | .hbm, ⟨16, _⟩ => ⟨S16x3x65536, .f32⟩
  | .hbm, ⟨17, _⟩ => ⟨S_, .f32⟩
  | .hbm, ⟨18, _⟩ => ⟨S16x3x65536, .f32⟩
  | .hbm, ⟨19, _⟩ => ⟨S16x3x65536, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16x3x65536, .f32⟩
  | .hbm, ⟨24, _⟩ => ⟨S16x3x65536, .f32⟩
  | .hbm, ⟨25, _⟩ => ⟨S_, .f32⟩
  | .hbm, ⟨26, _⟩ => ⟨S16x3x65536, .f32⟩
  | .hbm, ⟨27, _⟩ => ⟨S16x3x65536, .f32⟩
  | .hbm, ⟨28, _⟩ => ⟨S16x3x65536, .f32⟩
  | .hbm, ⟨29, _⟩ => ⟨S16x3x65536, .i32⟩
  | .hbm, ⟨30, _⟩ => ⟨S16x1x65536, .i32⟩
  | .hbm, ⟨31, _⟩ => ⟨S16x65536, .i32⟩
  | .hbm, ⟨32, _⟩ => ⟨S_, .i32⟩
  | .hbm, ⟨33, _⟩ => ⟨S16x65536, .i32⟩
  | .hbm, ⟨34, _⟩ => ⟨S16x65536, .i32⟩
  | .hbm, ⟨35, _⟩ => ⟨S16x1x65536, .i32⟩
  | .hbm, ⟨36, _⟩ => ⟨S16x65536, .i32⟩
  | .hbm, ⟨37, _⟩ => ⟨S16x65536, .i32⟩
  | .hbm, ⟨38, _⟩ => ⟨S_, .i32⟩
  | .hbm, ⟨39, _⟩ => ⟨S16x65536, .i32⟩
  | .hbm, ⟨40, _⟩ => ⟨S16x65536, .i32⟩
  | .hbm, ⟨41, _⟩ => ⟨S16x1x65536, .i32⟩
  | .hbm, ⟨42, _⟩ => ⟨S16x65536, .i32⟩
  | .hbm, ⟨43, _⟩ => ⟨S16x65536, .i32⟩
  | .hbm, ⟨44, _⟩ => ⟨S16x1x65536, .i32⟩
  | .hbm, ⟨45, _⟩ => ⟨S16x65536x64, .f32⟩
  | .hbm, ⟨46, _⟩ => ⟨S16x65536x64, .bf16⟩
  | .hbm, ⟨47, _⟩ => ⟨S_, .bf16⟩
  | .hbm, ⟨48, _⟩ => ⟨S16x65536x1, .bf16⟩
  | .hbm, ⟨49, _⟩ => ⟨S_, .bf16⟩
  | .hbm, ⟨50, _⟩ => ⟨S16x65536x63, .bf16⟩
  | .hbm, ⟨51, _⟩ => ⟨S16x65536x128, .bf16⟩
  | .hbm, ⟨52, _⟩ => ⟨S16x32768x128, .f32⟩
  | .hbm, ⟨53, _⟩ => ⟨S16x32768x64, .f32⟩
  | .hbm, ⟨54, _⟩ => ⟨S16x32768x1, .f32⟩
  | .hbm, ⟨55, _⟩ => ⟨S16x32768, .f32⟩
  | .hbm, ⟨56, _⟩ => ⟨S_, .f32⟩
  | .hbm, ⟨57, _⟩ => ⟨S16x32768, .f32⟩
  | .hbm, ⟨58, _⟩ => ⟨S16x32768, .f32⟩
  | .hbm, ⟨59, _⟩ => ⟨S16x32768x1, .f32⟩
  | .hbm, ⟨60, _⟩ => ⟨S16x32768x64, .f32⟩
  | .hbm, ⟨61, _⟩ => ⟨S16x32768x64, .f32⟩
  | .hbm, ⟨62, _⟩ => ⟨S16x32x32x32x64, .f32⟩
  | .hbm, ⟨63, _⟩ => ⟨S16x64x32x32x32, .f32⟩
  | .local _ .vmem, ⟨0, _⟩ => ⟨S1x4096x128, .bf16⟩
  | .local _ .vmem, ⟨1, _⟩ => ⟨S1x4096x128, .bf16⟩
  | .local _ .vmem, ⟨2, _⟩ => ⟨S1x1x4096, .i32⟩
  | .local _ .vmem, ⟨3, _⟩ => ⟨S1x1x4096, .i32⟩
  | .local _ .vmem, ⟨4, _⟩ => ⟨S1x2048x128, .f32⟩
  | .local _ .vmem, ⟨5, _⟩ => ⟨S1x2048x128, .f32⟩
  | .local _ .vmem, ⟨6, _⟩ => ⟨S2048x128, .f32⟩
  | _, _ => ⟨S16x64x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_cst_5 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 16, 16], ![false, false, false]⟩

def k0_cond2 (i : grid0.Coords) : BitVec 1 :=
  let arg2 : BitVec 32 := BitVec.ofNat 32 (i 2).val
  let c15_i32 : BitVec 32 := 15#32
  let v23 : BitVec 1 := Scalar.cmpi .eq arg2 c15_i32
  let v24 : BitVec 32 := Scalar.extui v23
  let c0_i32_10 : BitVec 32 := 0#32
  let v25 : BitVec 1 := Scalar.cmpi .ne v24 c0_i32_10
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  transposes_S16x65536x3_S16x3x65536_0_2_1 : S16x65536x3.Transposes [0, 2, 1] S16x3x65536
  reducesTo_S16x3x65536_S16x3_d2 : S16x3x65536.ReducesTo [2] S16x3
  h_S_ : 0 < S_.numel
  bcast_S16x3_S16x3x1_0_1 : S16x3.BroadcastsInDim S16x3x1 (![0, 1] : Fin 2 → Fin S16x3x1.rank)
  bcast_S_S16x3x1 : S_.BroadcastsInDim S16x3x1 (![] : Fin 0 → Fin S16x3x1.rank)
  bcast_S16x3x1_S16x3x65536_0_1_2 : S16x3x1.BroadcastsInDim S16x3x65536 (![0, 1, 2] : Fin 3 → Fin S16x3x65536.rank)
  bcast_S_S16x3x65536 : S_.BroadcastsInDim S16x3x65536 (![] : Fin 0 → Fin S16x3x65536.rank)
  slices_S16x3x65536_S16x1x65536_0_0_0 : S16x3x65536.Slices ![0, 0, 0] S16x1x65536
  shapeCasts_S16x1x65536_S16x65536 : S16x1x65536.ShapeCasts S16x65536
  bcast_S_S16x65536 : S_.BroadcastsInDim S16x65536 (![] : Fin 0 → Fin S16x65536.rank)
  slices_S16x3x65536_S16x1x65536_0_1_0 : S16x3x65536.Slices ![0, 1, 0] S16x1x65536
  slices_S16x3x65536_S16x1x65536_0_2_0 : S16x3x65536.Slices ![0, 2, 0] S16x1x65536
  shapeCasts_S16x65536_S16x1x65536 : S16x65536.ShapeCasts S16x1x65536
  transposes_S16x64x65536_S16x65536x64_0_2_1 : S16x64x65536.Transposes [0, 2, 1] S16x65536x64
  bitsLt_bf16_f32 : FTy.bits .bf16 < FTy.bits .f32
  bcast_S_S16x65536x1 : S_.BroadcastsInDim S16x65536x1 (![] : Fin 0 → Fin S16x65536x1.rank)
  bcast_S_S16x65536x63 : S_.BroadcastsInDim S16x65536x63 (![] : Fin 0 → Fin S16x65536x63.rank)
  concatenates_S16x65536x64_S16x65536x1_S16x65536x63_S16x65536x128_d2 : Shape.Concatenates [S16x65536x64, S16x65536x1, S16x65536x63] S16x65536x128 2
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  iota_S2048x4096_d0_w32 : S2048x4096.Iotas .tc 32 [0]
  shapeCasts_S4096_S1x4096 : S4096.ShapeCasts S1x4096
  broadcasts_S1x4096_S2048x4096 : S1x4096.Broadcasts S2048x4096
  natLt_1_32 : 1 < 32
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  slices_S16x32768x128_S16x32768x64_0_0_0 : S16x32768x128.Slices ![0, 0, 0] S16x32768x64
  slices_S16x32768x128_S16x32768x1_0_0_64 : S16x32768x128.Slices ![0, 0, 64] S16x32768x1
  shapeCasts_S16x32768x1_S16x32768 : S16x32768x1.ShapeCasts S16x32768
  bcast_S_S16x32768 : S_.BroadcastsInDim S16x32768 (![] : Fin 0 → Fin S16x32768.rank)
  bcast_S16x32768_S16x32768x1_0_1 : S16x32768.BroadcastsInDim S16x32768x1 (![0, 1] : Fin 2 → Fin S16x32768x1.rank)
  bcast_S16x32768x1_S16x32768x64_0_1_2 : S16x32768x1.BroadcastsInDim S16x32768x64 (![0, 1, 2] : Fin 3 → Fin S16x32768x64.rank)
  shapeCasts_S16x32768x64_S16x32x32x32x64 : S16x32768x64.ShapeCasts S16x32x32x32x64
  transposes_S16x32x32x32x64_S16x64x32x32x32_0_4_1_2_3 : S16x32x32x32x64.Transposes [0, 4, 1, 2, 3] S16x64x32x32x32
  dot_S2048x4096_S4096x128_S2048x128_1_0_0_1_n_n_wf : DotDims.WF S2048x4096 S4096x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S16x65536x128.size a
  hwx0_0 : ∀ i : grid0.Coords, EltTy.bits .bf16 = 32 ∨ (Rect.block (s := S16x65536x128) S1x4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S16x1x65536.size a
  hwx0_1 : ∀ i : grid0.Coords, EltTy.bits .i32 = 32 ∨ (Rect.block (s := S16x1x65536) S1x1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x32768x128.size a
  hwx0_2 : ∀ i : grid0.Coords, EltTy.bits .f32 = 32 ∨ (Rect.block (s := S16x32768x128) S1x2048x128.size (cc0_transform_2 i) (hinb0_2 i)).WholeWords (EltTy.packing .f32)

variable [Facts₀]

def dot_S2048x4096_S4096x128_S2048x128_1_0_0_1_n_n : DotDims S2048x4096 S4096x128 S2048x128 where
  lhsContracting := [1]
  rhsContracting := [0]
  lhsNonContracting := [0]
  rhsNonContracting := [1]
  lhsBatch := []
  rhsBatch := []
  wf := dot_S2048x4096_S4096x128_S2048x128_1_0_0_1_n_n_wf

abbrev win0_0 : Pipeline.Window sig grid0 :=
  Pipeline.Window.ofSpec (Memref.whole main_v33) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x64x65536 : Shape := ⟨3, ![16, 64, 65536]⟩
abbrev S16x65536x3 : Shape := ⟨3, ![16, 65536, 3]⟩
abbrev S16x3x65536 : Shape := ⟨3, ![16, 3, 65536]⟩
abbrev S_ : Shape := ⟨0, ![]⟩
abbrev S16x3 : Shape := ⟨2, ![16, 3]⟩
abbrev S16x3x1 : Shape := ⟨3, ![16, 3, 1]⟩
abbrev S16x1x65536 : Shape := ⟨3, ![16, 1, 65536]⟩
abbrev S16x65536 : Shape := ⟨2, ![16, 65536]⟩
abbrev S16 : Shape := ⟨1, ![16]⟩
abbrev S16x1 : Shape := ⟨2, ![16, 1]⟩
abbrev S1048576 : Shape := ⟨1, ![1048576]⟩
abbrev S16x65536x64 : Shape := ⟨3, ![16, 65536, 64]⟩
abbrev S1048576x64 : Shape := ⟨2, ![1048576, 64]⟩
abbrev S524288x64 : Shape := ⟨2, ![524288, 64]⟩
abbrev S1048576x1 : Shape := ⟨2, ![1048576, 1]⟩
abbrev S524288 : Shape := ⟨1, ![524288]⟩
abbrev S524288x1 : Shape := ⟨2, ![524288, 1]⟩
abbrev S16x32x32x32x64 : Shape := ⟨5, ![16, 32, 32, 32, 64]⟩
abbrev S16x64x32x32x32 : Shape := ⟨5, ![16, 64, 32, 32, 32]⟩

abbrev nBuf : Space → Nat
  | .hbm => 72
  | .vmem => 0
  | .smem => 0
  | _ => 0

abbrev bufTy : (tb : Table) → Fin (tcTables nBuf tb) → BufTy
  | .hbm, ⟨0, _⟩ => ⟨S16x64x65536, .f32⟩
  | .hbm, ⟨1, _⟩ => ⟨S16x65536x3, .f32⟩
  | .hbm, ⟨2, _⟩ => ⟨S16x3x65536, .f32⟩
  | .hbm, ⟨3, _⟩ => ⟨S_, .f32⟩
  | .hbm, ⟨4, _⟩ => ⟨S16x3, .f32⟩
  | .hbm, ⟨5, _⟩ => ⟨S16x3x1, .f32⟩
  | .hbm, ⟨6, _⟩ => ⟨S_, .f32⟩
  | .hbm, ⟨7, _⟩ => ⟨S16x3x1, .f32⟩
  | .hbm, ⟨8, _⟩ => ⟨S16x3x1, .f32⟩
  | .hbm, ⟨9, _⟩ => ⟨S16x3x65536, .f32⟩
  | .hbm, ⟨10, _⟩ => ⟨S16x3x65536, .f32⟩
  | .hbm, ⟨11, _⟩ => ⟨S_, .f32⟩
  | .hbm, ⟨12, _⟩ => ⟨S16x3x65536, .f32⟩
  | .hbm, ⟨13, _⟩ => ⟨S16x3x65536, .f32⟩
  | .hbm, ⟨14, _⟩ => ⟨S_, .f32⟩
  | .hbm, ⟨15, _⟩ => ⟨S16x3x65536, .f32⟩
  | .hbm, ⟨16, _⟩ => ⟨S16x3x65536, .f32⟩
  | .hbm, ⟨17, _⟩ => ⟨S_, .f32⟩
  | .hbm, ⟨18, _⟩ => ⟨S16x3x65536, .f32⟩
  | .hbm, ⟨19, _⟩ => ⟨S16x3x65536, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16x3x65536, .f32⟩
  | .hbm, ⟨24, _⟩ => ⟨S16x3x65536, .f32⟩
  | .hbm, ⟨25, _⟩ => ⟨S_, .f32⟩
  | .hbm, ⟨26, _⟩ => ⟨S16x3x65536, .f32⟩
  | .hbm, ⟨27, _⟩ => ⟨S16x3x65536, .f32⟩
  | .hbm, ⟨28, _⟩ => ⟨S16x3x65536, .f32⟩
  | .hbm, ⟨29, _⟩ => ⟨S16x3x65536, .i32⟩
  | .hbm, ⟨30, _⟩ => ⟨S16x1x65536, .i32⟩
  | .hbm, ⟨31, _⟩ => ⟨S16x65536, .i32⟩
  | .hbm, ⟨32, _⟩ => ⟨S_, .i32⟩
  | .hbm, ⟨33, _⟩ => ⟨S16x65536, .i32⟩
  | .hbm, ⟨34, _⟩ => ⟨S16x65536, .i32⟩
  | .hbm, ⟨35, _⟩ => ⟨S16x1x65536, .i32⟩
  | .hbm, ⟨36, _⟩ => ⟨S16x65536, .i32⟩
  | .hbm, ⟨37, _⟩ => ⟨S16x65536, .i32⟩
  | .hbm, ⟨38, _⟩ => ⟨S_, .i32⟩
  | .hbm, ⟨39, _⟩ => ⟨S16x65536, .i32⟩
  | .hbm, ⟨40, _⟩ => ⟨S16x65536, .i32⟩
  | .hbm, ⟨41, _⟩ => ⟨S16x1x65536, .i32⟩
  | .hbm, ⟨42, _⟩ => ⟨S16x65536, .i32⟩
  | .hbm, ⟨43, _⟩ => ⟨S16x65536, .i32⟩
  | .hbm, ⟨44, _⟩ => ⟨S16, .i32⟩
  | .hbm, ⟨45, _⟩ => ⟨S16x1, .i32⟩
  | .hbm, ⟨46, _⟩ => ⟨S_, .i32⟩
  | .hbm, ⟨47, _⟩ => ⟨S16x1, .i32⟩
  | .hbm, ⟨48, _⟩ => ⟨S16x1, .i32⟩
  | .hbm, ⟨49, _⟩ => ⟨S16x65536, .i32⟩
  | .hbm, ⟨50, _⟩ => ⟨S16x65536, .i32⟩
  | .hbm, ⟨51, _⟩ => ⟨S1048576, .i32⟩
  | .hbm, ⟨52, _⟩ => ⟨S16x65536x64, .f32⟩
  | .hbm, ⟨53, _⟩ => ⟨S1048576x64, .f32⟩
  | .hbm, ⟨54, _⟩ => ⟨S_, .f32⟩
  | .hbm, ⟨55, _⟩ => ⟨S524288x64, .f32⟩
  | .hbm, ⟨56, _⟩ => ⟨S1048576x1, .i32⟩
  | .hbm, ⟨57, _⟩ => ⟨S524288x64, .f32⟩
  | .hbm, ⟨58, _⟩ => ⟨S_, .f32⟩
  | .hbm, ⟨59, _⟩ => ⟨S1048576, .f32⟩
  | .hbm, ⟨60, _⟩ => ⟨S_, .f32⟩
  | .hbm, ⟨61, _⟩ => ⟨S524288, .f32⟩
  | .hbm, ⟨62, _⟩ => ⟨S1048576x1, .i32⟩
  | .hbm, ⟨63, _⟩ => ⟨S524288, .f32⟩
  | .hbm, ⟨64, _⟩ => ⟨S_, .f32⟩
  | .hbm, ⟨65, _⟩ => ⟨S524288, .f32⟩
  | .hbm, ⟨66, _⟩ => ⟨S524288, .f32⟩
  | .hbm, ⟨67, _⟩ => ⟨S524288x1, .f32⟩
  | .hbm, ⟨68, _⟩ => ⟨S524288x64, .f32⟩
  | .hbm, ⟨69, _⟩ => ⟨S524288x64, .f32⟩
  | .hbm, ⟨70, _⟩ => ⟨S16x32x32x32x64, .f32⟩
  | .hbm, ⟨71, _⟩ => ⟨S16x64x32x32x32, .f32⟩
  | _, _ => ⟨S16x64x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_cst_5 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  transposes_S16x65536x3_S16x3x65536_0_2_1 : S16x65536x3.Transposes [0, 2, 1] S16x3x65536
  reducesTo_S16x3x65536_S16x3_d2 : S16x3x65536.ReducesTo [2] S16x3
  h_S_ : 0 < S_.numel
  bcast_S16x3_S16x3x1_0_1 : S16x3.BroadcastsInDim S16x3x1 (![0, 1] : Fin 2 → Fin S16x3x1.rank)
  bcast_S_S16x3x1 : S_.BroadcastsInDim S16x3x1 (![] : Fin 0 → Fin S16x3x1.rank)
  bcast_S16x3x1_S16x3x65536_0_1_2 : S16x3x1.BroadcastsInDim S16x3x65536 (![0, 1, 2] : Fin 3 → Fin S16x3x65536.rank)
  bcast_S_S16x3x65536 : S_.BroadcastsInDim S16x3x65536 (![] : Fin 0 → Fin S16x3x65536.rank)
  slices_S16x3x65536_S16x1x65536_0_0_0 : S16x3x65536.Slices ![0, 0, 0] S16x1x65536
  shapeCasts_S16x1x65536_S16x65536 : S16x1x65536.ShapeCasts S16x65536
  bcast_S_S16x65536 : S_.BroadcastsInDim S16x65536 (![] : Fin 0 → Fin S16x65536.rank)
  slices_S16x3x65536_S16x1x65536_0_1_0 : S16x3x65536.Slices ![0, 1, 0] S16x1x65536
  slices_S16x3x65536_S16x1x65536_0_2_0 : S16x3x65536.Slices ![0, 2, 0] S16x1x65536
  bcast_S16_S16x1_0 : S16.BroadcastsInDim S16x1 (![0] : Fin 1 → Fin S16x1.rank)
  bcast_S_S16x1 : S_.BroadcastsInDim S16x1 (![] : Fin 0 → Fin S16x1.rank)
  bcast_S16x1_S16x65536_0_1 : S16x1.BroadcastsInDim S16x65536 (![0, 1] : Fin 2 → Fin S16x65536.rank)
  shapeCasts_S16x65536_S1048576 : S16x65536.ShapeCasts S1048576
  transposes_S16x64x65536_S16x65536x64_0_2_1 : S16x64x65536.Transposes [0, 2, 1] S16x65536x64
  shapeCasts_S16x65536x64_S1048576x64 : S16x65536x64.ShapeCasts S1048576x64
  bcast_S_S524288x64 : S_.BroadcastsInDim S524288x64 (![] : Fin 0 → Fin S524288x64.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x64_0_1 : S524288x1.BroadcastsInDim S524288x64 (![0, 1] : Fin 2 → Fin S524288x64.rank)
  shapeCasts_S524288x64_S16x32x32x32x64 : S524288x64.ShapeCasts S16x32x32x32x64
  transposes_S16x32x32x32x64_S16x64x32x32x32_0_4_1_2_3 : S16x32x32x32x64.Transposes [0, 4, 1, 2, 3] S16x64x32x32x32
  scatter_S524288x64_S1048576x1_S1048576x64_1_0_0_1_wf : ScatterDims.WF S524288x64 S1048576x1 S1048576x64 [1] [0] [0] 1
  scatter_S524288_S1048576x1_S1048576_n_0_0_1_wf : ScatterDims.WF S524288 S1048576x1 S1048576 [] [0] [0] 1

variable [Facts₀]

def scatter_S524288x64_S1048576x1_S1048576x64_1_0_0_1 : ScatterDims S524288x64 S1048576x1 S1048576x64 where
  updateWindowDims := [1]
  insertedWindowDims := [0]
  scatterDimsToOperandDims := [0]
  indexVectorDim := 1
  wf := scatter_S524288x64_S1048576x1_S1048576x64_1_0_0_1_wf
def scatter_S524288_S1048576x1_S1048576_n_0_0_1 : ScatterDims S524288 S1048576x1 S1048576 where
  updateWindowDims := []
  insertedWindowDims := [0]
  scatterDimsToOperandDims := [0]
  indexVectorDim := 1
  wf := scatter_S524288_S1048576x1_S1048576_n_0_0_1_wf

class Facts : Prop extends Facts₀ where

variable [Facts]
-- ==== Proof.BitsKit.lean ====
/-
  The voxel-scatter kernel's call, seen from @main: what the core's buffers hold when the call is entered (the
  host lines before it have run: the voxel coordinates, the flat voxel index of every point, the features transposed
  and widened by a column of ones and 63 columns of zeros), that @main is those lines, the call, and the lines after
  it, and what those later lines may touch. Then the schedule of the call's 16 x 16 x 16 grid read in closed form:
  a point is `(cloud, voxel tile, point tile)`, the point tile its position modulo 16; the accumulator is cleared
  at point tile 0, added to at every point, and copied to the output block at point tile 15, the only points at
  which the output block is written back.
-/
import proofs.«176212_j76922864272024_1_alg».proof.Proof.Gen.Kernel.Launch
import proofs.«176212_j76922864272024_1_alg».proof.Proof.Gen.Kernel.Skeleton
import proofs.«176212_j76922864272024_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Vox

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- The host lines before the call, stretch by stretch: the coordinate arithmetic, the clip, the rounding, then the
    flat index and the widened features. -/
abbrev linesBefore : List (List (HloOp τ sig (Elt F))) := [hostOps0, hostOps0_1, hostOps0_2, hostOps0_3]

/-- What core `c`'s buffers hold when the call is entered. -/
abbrev V0 (c : Dev nD) : Valuation τ sig (Elt F) := StableHlo.after (List.flatten (linesBefore (F := F))) (fun b => m (c, b))
/-- The same, read at a buffer of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the call, the call, and the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (linesBefore (F := F)) [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The lines after the call touch only unscoped buffers of the core. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)
/-- They allocate nothing. -/
theorem after_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp hostOps1_fresh) op hop
/-- None of them writes the widened features, the flat index or the per-voxel sums. -/
theorem after_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  simp only [hostOps1, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-! ## The argument arrays are never written -/

/-- No line before the call writes the features: the call finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, StableHlo.TRef.unary, StableHlo.TRef.binary, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- Nor the points. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, StableHlo.TRef.unary, StableHlo.TRef.binary, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No line after the call writes a given buffer that is none of the call's three arrays: it ends as the call found it. -/
theorem tail_keeps (dats : (p : Fin 1) → (c : Dev nD) → Dat τ (Elt F) Unit ℕ (UR sig nD τ) ℕ (cfgs p) c) (c : Dev nD)
    (b : Ref sig .tc) (hb : ∀ w, Pipeline.arrRef spec0 w ≠ b)
    (hw : ∀ op ∈ (hostOps1 : List (HloOp τ sig (Elt F))), Proc.devRef .tc b ∉ op.writes) :
    Pipeline.afterTail₀ cfgs dats 0 (V0 m) [hostOps1] c b = V m c b := by
  unfold Pipeline.afterTail₀
  rw [StableHlo.after_of_forall_not_mem (b := Proc.devRef .tc b) _ _ (by
      simpa only [List.flatten_cons, List.flatten_nil, List.append_nil] using hw),
    Pipeline.withArrays_of_ne _ c (V0 m c) _ b hb]

theorem hostOps1_not_writes (b : Ref sig .tc)
    (hb : b ≠ main_v35 ∧ b ≠ main_v36 ∧ b ≠ main_v37 ∧ b ≠ main_cst_9 ∧ b ≠ main_v38 ∧ b ≠ main_v39 ∧ b ≠ main_v40 ∧ b ≠ main_v41 ∧ b ≠ main_v42 ∧ b ≠ main_v43 ∧ b ≠ main_v44) :
    ∀ op ∈ (hostOps1 : List (HloOp τ sig (Elt F))), Proc.devRef (τ := τ) .tc b ∉ op.writes := by
  obtain ⟨h1, h2, h3, h4, h5, h6, h7, h8, h9, h10, h11⟩ := hb
  intro op hop
  simp only [hostOps1, List.mem_cons, List.mem_nil_iff, or_false] at hop
  rcases hop with rfl | rfl | rfl | rfl | rfl | rfl | rfl | rfl | rfl | rfl | rfl
  all_goals simp only [StableHlo.nullary_writes, StableHlo.unary_writes, StableHlo.binary_writes, StableHlo.reshape_writes, Finset.mem_singleton]
  all_goals exact StableHlo.devRef_ne_of_ne (by assumption)

/-- The features end as launched, -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (tail_keeps m dats c main_arg0 (by decide) (hostOps1_not_writes main_arg0 (by decide))).trans (V_main_arg0 m c)
/-- and so do the points. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_keeps m dats c main_arg1 (by decide) (hostOps1_not_writes main_arg1 (by decide))).trans (V_main_arg1 m c)
/-- The voxel coordinates, computed before the call, are left alone by the lines after it. -/
theorem W_main_v13 (dats : (p : Fin 1) → (c : Dev nD) → Dat τ (Elt F) Unit ℕ (UR sig nD τ) ℕ (cfgs p) c) (c : Dev nD) :
    Pipeline.afterTail₀ cfgs dats 0 (V0 m) [hostOps1] c main_v13 = V m c main_v13 :=
  tail_keeps m dats c main_v13 (by decide) (hostOps1_not_writes main_v13 (by decide))

/-! ## The blocks the call reads -/

/-- Window `w`'s block at grid point `t`, cut out of its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds the point's block of 4096 points when the body starts. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The index window's staging buffer holds the same 4096 points' flat voxel indices. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the call -/

/-- A run of @main that ends with every buffer outside the call's arrays as the lines after the call leave it ends with
    both argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The two tests the body makes of its grid point -/

/-- "This is the cloud's first tile of points": the test under which the body clears the accumulator. -/
abbrev firstTile (i : grid0.Coords) : Prop := (Scalar.cmpi .ne (Scalar.extui (Scalar.cmpi .eq (BitVec.ofNat 32 (i 2).val) 0#32)) 0#32) = 1#1
/-- It holds exactly at the points whose position is 0 modulo 16. -/
theorem firstTile_iff : ∀ t : Fin cfg0.N, firstTile (grid0.coords t) ↔ t.val % 16 = 0 :=
  (by decide +kernel : ∀ t : Fin grid0.N, firstTile (grid0.coords t) ↔ t.val % 16 = 0)

/-- "This is the last tile of points": the test under which the body copies the accumulator to the output block. -/
abbrev lastTile (i : grid0.Coords) : Prop := k0_cond2 i = 1#1
/-- It holds exactly at the points whose position is 15 modulo 16. -/
theorem lastTile_iff : ∀ t : Fin cfg0.N, lastTile (grid0.coords t) ↔ t.val % 16 = 15 :=
  (by decide +kernel : ∀ t : Fin grid0.N, lastTile (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last tile the body stores nothing into the output block, -/
theorem idleAt0_2 : ∀ t : Fin cfg0.N, ¬lastTile (grid0.coords t) → cfg0.idle 2 (grid0.coords t) = true := by decide +kernel
/-- and the block is not written back there. -/
theorem noFlush0_2 : ∀ t : Fin cfg0.N, ¬lastTile (grid0.coords t) → (cfg0.win 2).flush t = false := by decide +kernel
/-- At the last tile it is live. -/
theorem liveAt0_2 : ∀ t : Fin cfg0.N, lastTile (grid0.coords t) → cfg0.idle 2 (grid0.coords t) = false := by decide +kernel

/-! ## The memrefs the body is called with -/

abbrev VO0_2 : View sig .tc .vmem S1x2048x128 .f32 := (Memref.whole cc0_stg2_0 : Memref sig .tc .vmem S1x2048x128 .f32).view
abbrev ms0_0 (t : Fin cfg0.N) : Memref sig .tc .vmem S1x4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
/-- The accumulator: a scratch buffer of the kernel's own, 2048 voxels by 128 channels, kept from point to point. -/
abbrev scM0_0 : Memref sig .tc .vmem S2048x128 .f32 := Memref.whole cc0_scratch0
abbrev VS0_0 : View sig .tc .vmem S2048x128 .f32 := scM0_0.view

/-- What the call is handed besides its windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Vox

end
-- ==== Proof.BitsRunA.lean ====
/-
  The body at a cloud's FIRST tile of points (point tile 0; it is not the last, there being sixteen): whatever the
  accumulator held is read and dropped, the accumulator is cleared, and the tile's contribution is added to it. The
  output block's staging buffer is not touched. Stated on any whole staging memrefs: the feature block at `x0`, the
  index block at `x1`, the output buffer at `xi2` (handed back as found), the accumulator at anything; it ends with the
  accumulator overwritten by the pieces `LS0` the run finds (the clearing store, then the accumulating one).
-/
import proofs.«176212_j76922864272024_1_alg».proof.Proof.BitsKit

set_option maxRecDepth 16384

noncomputable section

namespace Cert.Kernel.Vox

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def kernelRun0_A (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : firstTile i) (hc1 : ¬lastTile i)
    (x0 : Vec F S1x4096x128 .bf16) (x1 : Vec F S1x1x4096 .i32) :
    Σ' (L2 : List (View.Piece (Elt F) S1x2048x128 .f32)), { LS0 : List (View.Piece (Elt F) S2048x128 .f32) //
      ∀ (xi2 : Vec F S1x2048x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__scatter_kernel i arg3 harg3 arg4 harg4 arg5 harg5 arg6 harg6) K } := by
  refine ⟨[], ?_, fun xi2 E K => ?run⟩
  case run =>
    simp only [cc0__scatter_kernel_eq_skeleton]; unfold cc0__scatter_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Vox

end
-- ==== Proof.BitsRunB.lean ====
/-
  The body at a MIDDLE tile of points (point tiles 1 to 14): the accumulator arrives at what the point before left in it
  (`xs0`) and the tile's contribution is added to it. Nothing is cleared and the output block's staging buffer is not
  touched. It ends with the accumulator overwritten by the one piece `LS0` the run finds.
-/
import proofs.«176212_j76922864272024_1_alg».proof.Proof.BitsRunA

set_option maxRecDepth 16384

noncomputable section

namespace Cert.Kernel.Vox

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def kernelRun0_B (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : ¬lastTile i)
    (x0 : Vec F S1x4096x128 .bf16) (x1 : Vec F S1x1x4096 .i32) (xs0 : Vec F S2048x128 .f32) :
    Σ' (L2 : List (View.Piece (Elt F) S1x2048x128 .f32)), { LS0 : List (View.Piece (Elt F) S2048x128 .f32) //
      ∀ (xi2 : Vec F S1x2048x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__scatter_kernel i arg3 harg3 arg4 harg4 arg5 harg5 arg6 harg6) K } := by
  refine ⟨[], ?_, fun xi2 E K => ?run⟩
  case run =>
    simp only [cc0__scatter_kernel_eq_skeleton]; unfold cc0__scatter_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Vox

end
-- ==== Proof.BitsRunC.lean ====
/-
  The body at a cloud's LAST tile of points (point tile 15): the accumulator arrives at what the point before left in it
  (`xs0`), the tile's contribution is added, and the accumulator is then read back and stored, whole, into the output
  block's staging buffer, which arrives at anything. It ends with the accumulator overwritten by the piece `LS0` and
  the output buffer by the piece `L2`, both found by the run.
-/
import proofs.«176212_j76922864272024_1_alg».proof.Proof.BitsRunB

set_option maxRecDepth 16384

noncomputable section

namespace Cert.Kernel.Vox

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def kernelRun0_C (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : lastTile i)
    (x0 : Vec F S1x4096x128 .bf16) (x1 : Vec F S1x1x4096 .i32) (xs0 : Vec F S2048x128 .f32) :
    Σ' (L2 : List (View.Piece (Elt F) S1x2048x128 .f32)), { LS0 : List (View.Piece (Elt F) S2048x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ e, arg5.view.loc (c : Thread nD τ) ↦[arg5.view.set]{fullShare} arg5.view.writes (Elt F) e L2) ∗ (∃ f, arg6.view.loc (c : Thread nD τ) ↦[arg6.view.set]{fullShare} arg6.view.writes (Elt F) f LS0)) -∗ K ⟨⟩))
          ⊢ wp frame (wpE (defs₀ (F := F)) Variants.none c none) E (cc0__scatter_kernel i arg3 harg3 arg4 harg4 arg5 harg5 arg6 harg6) K } := by
  refine ⟨?_, ?_, fun E K => ?run⟩
  case run =>
    simp only [cc0__scatter_kernel_eq_skeleton]; unfold cc0__scatter_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS0

end Cert.Kernel.Vox

end
-- ==== Proof.BitsFrame.lean ====
/-
  The voxel-scatter call as a whole. Point by point (`outsAt0`): what the output block's staging buffer and the
  accumulator hold after the body, by the point's position modulo 16 — at 0 the accumulator is cleared and the first
  tile added; at 1 to 14 the tile is added to what the point before left; at 15 the last tile is added and the
  accumulator copied to the output buffer, which is then written back: the only write-back of that block. The region's
  invariant carries the accumulator's contents from each point to the next (`PhiS`). With that proof data the body meets
  its obligation at every point, so every weakly fair execution of @main terminates, the call's arrays end at what the
  write-backs leave and every other buffer as the lines after the call leave it; in particular the two argument arrays
  end as launched.
-/
import proofs.«176212_j76922864272024_1_alg».proof.Proof.BitsRunC

set_option maxRecDepth 16384

noncomputable section

namespace Cert.Kernel.Vox

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves behind -/

/-- First tile: nothing is stored into the output buffer (junk read back; never consulted). -/
def out0_A_2 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : firstTile i) (hc1 : ¬lastTile i) (x0 : Vec F S1x4096x128 .bf16) (x1 : Vec F S1x1x4096 .i32) : Vec F S1x2048x128 .f32 :=
  VO0_2.read (Elt F) (VO0_2.writes (Elt F) VO0_2.junk (kernelRun0_A c i arg3 harg3 arg4 harg4 arg5 harg5 arg6 harg6 hc0 hc1 x0 x1).1)
/-- First tile: the two stores into the accumulator cover it. -/
theorem scover0_A_0 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : firstTile i) (hc1 : ¬lastTile i) (x0 : Vec F S1x4096x128 .bf16) (x1 : Vec F S1x1x4096 .i32) (y : S2048x128.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S2048x128.size (by sl_kernel_rfl) y
/-- First tile: what the accumulator holds afterwards. -/
def sout0_A_0 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : firstTile i) (hc1 : ¬lastTile i) (x0 : Vec F S1x4096x128 .bf16) (x1 : Vec F S1x1x4096 .i32) : Vec F S2048x128 .f32 :=
  VS0_0.read (Elt F) (VS0_0.writes (Elt F) VS0_0.junk (kernelRun0_A c i arg3 harg3 arg4 harg4 arg5 harg5 arg6 harg6 hc0 hc1 x0 x1).2.1)

/-- Middle tile: nothing is stored into the output buffer. -/
def out0_B_2 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : ¬lastTile i) (x0 : Vec F S1x4096x128 .bf16) (x1 : Vec F S1x1x4096 .i32) (xs0 : Vec F S2048x128 .f32) : Vec F S1x2048x128 .f32 :=
  VO0_2.read (Elt F) (VO0_2.writes (Elt F) VO0_2.junk (kernelRun0_B c i arg3 harg3 arg4 harg4 arg5 harg5 arg6 harg6 hc0 hc1 x0 x1 xs0).1)
theorem scover0_B_0 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : ¬lastTile i) (x0 : Vec F S1x4096x128 .bf16) (x1 : Vec F S1x1x4096 .i32) (xs0 : Vec F S2048x128 .f32) (y : S2048x128.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S2048x128.size (by sl_kernel_rfl) y
/-- Middle tile: what the accumulator holds afterwards. -/
def sout0_B_0 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : ¬lastTile i) (x0 : Vec F S1x4096x128 .bf16) (x1 : Vec F S1x1x4096 .i32) (xs0 : Vec F S2048x128 .f32) : Vec F S2048x128 .f32 :=
  VS0_0.read (Elt F) (VS0_0.writes (Elt F) VS0_0.junk (kernelRun0_B c i arg3 harg3 arg4 harg4 arg5 harg5 arg6 harg6 hc0 hc1 x0 x1 xs0).2.1)

/-- Last tile: the one store into the output buffer covers it. -/
theorem cover0_C_2 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : lastTile i) (x0 : Vec F S1x4096x128 .bf16) (x1 : Vec F S1x1x4096 .i32) (xs0 : Vec F S2048x128 .f32) (y : S1x2048x128.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x2048x128.size (by sl_kernel_rfl) y
/-- Last tile: what the output buffer holds afterwards. -/
def out0_C_2 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : lastTile i) (x0 : Vec F S1x4096x128 .bf16) (x1 : Vec F S1x1x4096 .i32) (xs0 : Vec F S2048x128 .f32) : Vec F S1x2048x128 .f32 :=
  VO0_2.read (Elt F) (VO0_2.writes (Elt F) VO0_2.junk (kernelRun0_C c i arg3 harg3 arg4 harg4 arg5 harg5 arg6 harg6 hc0 hc1 x0 x1 xs0).1)
theorem scover0_C_0 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : lastTile i) (x0 : Vec F S1x4096x128 .bf16) (x1 : Vec F S1x1x4096 .i32) (xs0 : Vec F S2048x128 .f32) (y : S2048x128.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S2048x128.size (by sl_kernel_rfl) y
/-- Last tile: what the accumulator holds afterwards. -/
def sout0_C_0 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : lastTile i) (x0 : Vec F S1x4096x128 .bf16) (x1 : Vec F S1x1x4096 .i32) (xs0 : Vec F S2048x128 .f32) : Vec F S2048x128 .f32 :=
  VS0_0.read (Elt F) (VS0_0.writes (Elt F) VS0_0.junk (kernelRun0_C c i arg3 harg3 arg4 harg4 arg5 harg5 arg6 harg6 hc0 hc1 x0 x1 xs0).2.1)

/-! ## Point by point -/

/-- What the output block's staging buffer (first component) and the accumulator (second) hold after the body at
    position `n`: the case the position selects, run on the point's blocks, the accumulator taken from the point before. -/
def outsAt0 (c : Dev nD) : (n : ℕ) → n < cfg0.N → Vec F S1x2048x128 .f32 × Vec F S2048x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((firstTile_iff ⟨0, hn⟩).mpr (Nat.zero_mod _)) (fun h => absurd ((lastTile_iff ⟨0, hn⟩).mp h) (by decide : ¬ (0 % 16 = 15))) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((firstTile_iff ⟨0, hn⟩).mpr (Nat.zero_mod _)) (fun h => absurd ((lastTile_iff ⟨0, hn⟩).mp h) (by decide : ¬ (0 % 16 = 15))) (iblk m c 0 ⟨0, hn⟩) (iblk m c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((firstTile_iff ⟨n + 1, hn⟩).mpr h0) (fun h => h1 ((lastTile_iff ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((firstTile_iff ⟨n + 1, hn⟩).mpr h0) (fun h => h1 ((lastTile_iff ⟨n + 1, hn⟩).mp h)) (iblk m c 0 ⟨n + 1, hn⟩) (iblk m c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((firstTile_iff ⟨n + 1, hn⟩).mp h)) ((lastTile_iff ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((firstTile_iff ⟨n + 1, hn⟩).mp h)) ((lastTile_iff ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((firstTile_iff ⟨n + 1, hn⟩).mp h)) (fun h => h1 ((lastTile_iff ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((firstTile_iff ⟨n + 1, hn⟩).mp h)) (fun h => h1 ((lastTile_iff ⟨n + 1, hn⟩).mp h)) (iblk m c 0 ⟨n + 1, hn⟩) (iblk m c 1 ⟨n + 1, hn⟩) (outsAt0 c n (Nat.lt_of_succ_lt hn)).2)

/-- At a first tile. -/
theorem outsAt0_A (c : Dev nD) (t : Fin cfg0.N) (h0 : t.val % 16 = 0) (h1 : ¬t.val % 16 = 15) :
    outsAt0 m c t.val t.isLt = (out0_A_2 c (grid0.coords t) (ms0_0 t) (hs0_0 t) (ms0_1 t) (hs0_1 t) (ms0_2 t) (hs0_2 t) scM0_0 (Memref.isWhole_whole _) ((firstTile_iff t).mpr h0) (fun h => h1 ((lastTile_iff t).mp h)) (iblk m c 0 t) (iblk m c 1 t), sout0_A_0 c (grid0.coords t) (ms0_0 t) (hs0_0 t) (ms0_1 t) (hs0_1 t) (ms0_2 t) (hs0_2 t) scM0_0 (Memref.isWhole_whole _) ((firstTile_iff t).mpr h0) (fun h => h1 ((lastTile_iff t).mp h)) (iblk m c 0 t) (iblk m c 1 t)) := by
  obtain ⟨n, hn⟩ := t
  cases n with
  | zero => exact rfl
  | succ n => exact (dif_pos h0).trans ((dif_neg h1).trans rfl)

/-- At a middle tile, over what the point before left in the accumulator. -/
theorem outsAt0_B (c : Dev nD) (t : Fin cfg0.N) (h0 : ¬t.val % 16 = 0) (h1 : ¬t.val % 16 = 15) :
    outsAt0 m c t.val t.isLt = (out0_B_2 c (grid0.coords t) (ms0_0 t) (hs0_0 t) (ms0_1 t) (hs0_1 t) (ms0_2 t) (hs0_2 t) scM0_0 (Memref.isWhole_whole _) (fun h => h0 ((firstTile_iff t).mp h)) (fun h => h1 ((lastTile_iff t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((firstTile_iff t).mp h)) (fun h => h1 ((lastTile_iff t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile, over what the point before left in the accumulator. -/
theorem outsAt0_C (c : Dev nD) (t : Fin cfg0.N) (h0 : ¬t.val % 16 = 0) (h1 : t.val % 16 = 15) :
    outsAt0 m c t.val t.isLt = (out0_C_2 c (grid0.coords t) (ms0_0 t) (hs0_0 t) (ms0_1 t) (hs0_1 t) (ms0_2 t) (hs0_2 t) scM0_0 (Memref.isWhole_whole _) (fun h => h0 ((firstTile_iff t).mp h)) ((lastTile_iff t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((firstTile_iff t).mp h)) ((lastTile_iff t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the call was handed; afterwards the
    accumulator at what the point before left in it, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the call finds them; after the body each input buffer still at its block and the output buffer at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body's obligation at a generic point -/

/-- What the body is called with at point `t`: the invariant, nothing owed, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The two input buffers hold their blocks; the point's position modulo 16 says which of the
    three cases it is; the invariant hands over the accumulator at what the point before left (at anything at the very
    first point of the grid) and takes it back at this point's contents; away from the last tile the output buffer is
    handed back as it was found, at the last tile it is left holding the accumulator's final contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  by_cases h0 : t.val % 16 = 0
  · by_cases h1 : t.val % 16 = 15
    · exfalso; omega
    · have hf : firstTile (grid0.coords t) := (firstTile_iff t).mpr h0
      have hl : ¬lastTile (grid0.coords t) := fun h => h1 ((lastTile_iff t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t hl) (noFlush0_2 t hl)]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((firstTile_iff t).mpr h0) (fun h => h1 ((lastTile_iff t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((firstTile_iff t).mpr h0) (fun h => h1 ((lastTile_iff t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun h => h0 (by rw [h])
    by_cases h1 : t.val % 16 = 15
    · have hl : lastTile (grid0.coords t) := (lastTile_iff t).mpr h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t hl], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((firstTile_iff t).mp h)) ((lastTile_iff t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · have hl : ¬lastTile (grid0.coords t) := fun h => h1 ((lastTile_iff t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t hl) (noFlush0_2 t hl)]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((firstTile_iff t).mp h)) (fun h => h1 ((lastTile_iff t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the call is handed is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives that back, the accumulator's contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 4096 := N_0; omega)

/-! ## The run and the frame -/

set_option backward.isDefEq.respectTransparency.types false in
/-- Every weakly fair execution of @main terminates; each of the call's three arrays ends at what the write-backs
    leave, and every other unscoped buffer as the lines after the call leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := after_sub) (hfresh := after_fresh) (hkeep := after_keeps)
    (hmain := hmain m Variants.none) (hA := A_eq m) (hin := hin m) (hout := hout m)

/-- The frame: @main runs to the end and both argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Vox

end
-- ==== Proof.IdealKit.lean ====
/-
  The voxel-scatter kernel's call, seen from @main: what the core's buffers hold when the call is entered (the
  host lines before it have run: the voxel coordinates, the flat voxel index of every point, the features transposed
  and widened by a column of ones and 63 columns of zeros), that @main is those lines, the call, and the lines after
  it, and what those later lines may touch. Then the schedule of the call's 16 x 16 x 16 grid read in closed form:
  a point is `(cloud, voxel tile, point tile)`, the point tile its position modulo 16; the accumulator is cleared
  at point tile 0, added to at every point, and copied to the output block at point tile 15, the only points at
  which the output block is written back.
-/
import proofs.«176212_j76922864272024_1_alg».proof.Proof.Gen.KernelIdeal.Launch
import proofs.«176212_j76922864272024_1_alg».proof.Proof.Gen.KernelIdeal.Skeleton
import proofs.«176212_j76922864272024_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Vox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- The host lines before the call, stretch by stretch: the coordinate arithmetic, the clip, the rounding, then the
    flat index and the widened features. -/
abbrev linesBefore : List (List (HloOp τ sig (Elt F))) := [hostOps0, hostOps0_1, hostOps0_2, hostOps0_3]

/-- What core `c`'s buffers hold when the call is entered. -/
abbrev V0 (c : Dev nD) : Valuation τ sig (Elt F) := StableHlo.after (List.flatten (linesBefore (F := F))) (fun b => m (c, b))
/-- The same, read at a buffer of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the call, the call, and the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (linesBefore (F := F)) [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The lines after the call touch only unscoped buffers of the core. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)
/-- They allocate nothing. -/
theorem after_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp hostOps1_fresh) op hop
/-- None of them writes the widened features, the flat index or the per-voxel sums. -/
theorem after_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  simp only [hostOps1, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-! ## The argument arrays are never written -/

/-- No line before the call writes the features: the call finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, StableHlo.TRef.unary, StableHlo.TRef.binary, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- Nor the points. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, StableHlo.TRef.unary, StableHlo.TRef.binary, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No line after the call writes a given buffer that is none of the call's three arrays: it ends as the call found it. -/
theorem tail_keeps (dats : (p : Fin 1) → (c : Dev nD) → Dat τ (Elt F) Unit ℕ (UR sig nD τ) ℕ (cfgs p) c) (c : Dev nD)
    (b : Ref sig .tc) (hb : ∀ w, Pipeline.arrRef spec0 w ≠ b)
    (hw : ∀ op ∈ (hostOps1 : List (HloOp τ sig (Elt F))), Proc.devRef .tc b ∉ op.writes) :
    Pipeline.afterTail₀ cfgs dats 0 (V0 m) [hostOps1] c b = V m c b := by
  unfold Pipeline.afterTail₀
  rw [StableHlo.after_of_forall_not_mem (b := Proc.devRef .tc b) _ _ (by
      simpa only [List.flatten_cons, List.flatten_nil, List.append_nil] using hw),
    Pipeline.withArrays_of_ne _ c (V0 m c) _ b hb]

theorem hostOps1_not_writes (b : Ref sig .tc)
    (hb : b ≠ main_v35 ∧ b ≠ main_v36 ∧ b ≠ main_v37 ∧ b ≠ main_cst_9 ∧ b ≠ main_v38 ∧ b ≠ main_v39 ∧ b ≠ main_v40 ∧ b ≠ main_v41 ∧ b ≠ main_v42 ∧ b ≠ main_v43 ∧ b ≠ main_v44) :
    ∀ op ∈ (hostOps1 : List (HloOp τ sig (Elt F))), Proc.devRef (τ := τ) .tc b ∉ op.writes := by
  obtain ⟨h1, h2, h3, h4, h5, h6, h7, h8, h9, h10, h11⟩ := hb
  intro op hop
  simp only [hostOps1, List.mem_cons, List.mem_nil_iff, or_false] at hop
  rcases hop with rfl | rfl | rfl | rfl | rfl | rfl | rfl | rfl | rfl | rfl | rfl
  all_goals simp only [StableHlo.nullary_writes, StableHlo.unary_writes, StableHlo.binary_writes, StableHlo.reshape_writes, Finset.mem_singleton]
  all_goals exact StableHlo.devRef_ne_of_ne (by assumption)

/-- The features end as launched, -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (tail_keeps m dats c main_arg0 (by decide) (hostOps1_not_writes main_arg0 (by decide))).trans (V_main_arg0 m c)
/-- and so do the points. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_keeps m dats c main_arg1 (by decide) (hostOps1_not_writes main_arg1 (by decide))).trans (V_main_arg1 m c)
/-- The voxel coordinates, computed before the call, are left alone by the lines after it. -/
theorem W_main_v13 (dats : (p : Fin 1) → (c : Dev nD) → Dat τ (Elt F) Unit ℕ (UR sig nD τ) ℕ (cfgs p) c) (c : Dev nD) :
    Pipeline.afterTail₀ cfgs dats 0 (V0 m) [hostOps1] c main_v13 = V m c main_v13 :=
  tail_keeps m dats c main_v13 (by decide) (hostOps1_not_writes main_v13 (by decide))

/-! ## The blocks the call reads -/

/-- Window `w`'s block at grid point `t`, cut out of its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds the point's block of 4096 points when the body starts. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The index window's staging buffer holds the same 4096 points' flat voxel indices. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the call -/

/-- A run of @main that ends with every buffer outside the call's arrays as the lines after the call leave it ends with
    both argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The two tests the body makes of its grid point -/

/-- "This is the cloud's first tile of points": the test under which the body clears the accumulator. -/
abbrev firstTile (i : grid0.Coords) : Prop := (Scalar.cmpi .ne (Scalar.extui (Scalar.cmpi .eq (BitVec.ofNat 32 (i 2).val) 0#32)) 0#32) = 1#1
/-- It holds exactly at the points whose position is 0 modulo 16. -/
theorem firstTile_iff : ∀ t : Fin cfg0.N, firstTile (grid0.coords t) ↔ t.val % 16 = 0 :=
  (by decide +kernel : ∀ t : Fin grid0.N, firstTile (grid0.coords t) ↔ t.val % 16 = 0)

/-- "This is the last tile of points": the test under which the body copies the accumulator to the output block. -/
abbrev lastTile (i : grid0.Coords) : Prop := k0_cond2 i = 1#1
/-- It holds exactly at the points whose position is 15 modulo 16. -/
theorem lastTile_iff : ∀ t : Fin cfg0.N, lastTile (grid0.coords t) ↔ t.val % 16 = 15 :=
  (by decide +kernel : ∀ t : Fin grid0.N, lastTile (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last tile the body stores nothing into the output block, -/
theorem idleAt0_2 : ∀ t : Fin cfg0.N, ¬lastTile (grid0.coords t) → cfg0.idle 2 (grid0.coords t) = true := by decide +kernel
/-- and the block is not written back there. -/
theorem noFlush0_2 : ∀ t : Fin cfg0.N, ¬lastTile (grid0.coords t) → (cfg0.win 2).flush t = false := by decide +kernel
/-- At the last tile it is live. -/
theorem liveAt0_2 : ∀ t : Fin cfg0.N, lastTile (grid0.coords t) → cfg0.idle 2 (grid0.coords t) = false := by decide +kernel

/-! ## The memrefs the body is called with -/

abbrev VO0_2 : View sig .tc .vmem S1x2048x128 .f32 := (Memref.whole cc0_stg2_0 : Memref sig .tc .vmem S1x2048x128 .f32).view
abbrev ms0_0 (t : Fin cfg0.N) : Memref sig .tc .vmem S1x4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
/-- The accumulator: a scratch buffer of the kernel's own, 2048 voxels by 128 channels, kept from point to point. -/
abbrev scM0_0 : Memref sig .tc .vmem S2048x128 .f32 := Memref.whole cc0_scratch0
abbrev VS0_0 : View sig .tc .vmem S2048x128 .f32 := scM0_0.view

/-- What the call is handed besides its windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Vox

end
-- ==== Proof.IdealRunA.lean ====
/-
  The body at a cloud's FIRST tile of points (point tile 0; it is not the last, there being sixteen): whatever the
  accumulator held is read and dropped, the accumulator is cleared, and the tile's contribution is added to it. The
  output block's staging buffer is not touched. Stated on any whole staging memrefs: the feature block at `x0`, the
  index block at `x1`, the output buffer at `xi2` (handed back as found), the accumulator at anything; it ends with the
  accumulator overwritten by the pieces `LS0` the run finds (the clearing store, then the accumulating one).
-/
import proofs.«176212_j76922864272024_1_alg».proof.Proof.IdealKit

set_option maxRecDepth 16384

noncomputable section

namespace Cert.KernelIdeal.Vox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def kernelRun0_A (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : firstTile i) (hc1 : ¬lastTile i)
    (x0 : Vec F S1x4096x128 .bf16) (x1 : Vec F S1x1x4096 .i32) :
    Σ' (L2 : List (View.Piece (Elt F) S1x2048x128 .f32)), { LS0 : List (View.Piece (Elt F) S2048x128 .f32) //
      ∀ (xi2 : Vec F S1x2048x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__scatter_kernel i arg3 harg3 arg4 harg4 arg5 harg5 arg6 harg6) K } := by
  refine ⟨[], ?_, fun xi2 E K => ?run⟩
  case run =>
    simp only [cc0__scatter_kernel_eq_skeleton]; unfold cc0__scatter_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Vox

end
-- ==== Proof.IdealRunB.lean ====
/-
  The body at a MIDDLE tile of points (point tiles 1 to 14): the accumulator arrives at what the point before left in it
  (`xs0`) and the tile's contribution is added to it. Nothing is cleared and the output block's staging buffer is not
  touched. It ends with the accumulator overwritten by the one piece `LS0` the run finds.
-/
import proofs.«176212_j76922864272024_1_alg».proof.Proof.IdealRunA

set_option maxRecDepth 16384

noncomputable section

namespace Cert.KernelIdeal.Vox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def kernelRun0_B (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : ¬lastTile i)
    (x0 : Vec F S1x4096x128 .bf16) (x1 : Vec F S1x1x4096 .i32) (xs0 : Vec F S2048x128 .f32) :
    Σ' (L2 : List (View.Piece (Elt F) S1x2048x128 .f32)), { LS0 : List (View.Piece (Elt F) S2048x128 .f32) //
      ∀ (xi2 : Vec F S1x2048x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__scatter_kernel i arg3 harg3 arg4 harg4 arg5 harg5 arg6 harg6) K } := by
  refine ⟨[], ?_, fun xi2 E K => ?run⟩
  case run =>
    simp only [cc0__scatter_kernel_eq_skeleton]; unfold cc0__scatter_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Vox

end
-- ==== Proof.IdealRunC.lean ====
/-
  The body at a cloud's LAST tile of points (point tile 15): the accumulator arrives at what the point before left in it
  (`xs0`), the tile's contribution is added, and the accumulator is then read back and stored, whole, into the output
  block's staging buffer, which arrives at anything. It ends with the accumulator overwritten by the piece `LS0` and
  the output buffer by the piece `L2`, both found by the run.
-/
import proofs.«176212_j76922864272024_1_alg».proof.Proof.IdealRunB

set_option maxRecDepth 16384

noncomputable section

namespace Cert.KernelIdeal.Vox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def kernelRun0_C (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : lastTile i)
    (x0 : Vec F S1x4096x128 .bf16) (x1 : Vec F S1x1x4096 .i32) (xs0 : Vec F S2048x128 .f32) :
    Σ' (L2 : List (View.Piece (Elt F) S1x2048x128 .f32)), { LS0 : List (View.Piece (Elt F) S2048x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ e, arg5.view.loc (c : Thread nD τ) ↦[arg5.view.set]{fullShare} arg5.view.writes (Elt F) e L2) ∗ (∃ f, arg6.view.loc (c : Thread nD τ) ↦[arg6.view.set]{fullShare} arg6.view.writes (Elt F) f LS0)) -∗ K ⟨⟩))
          ⊢ wp frame (wpE (defs₀ (F := F)) Variants.none c none) E (cc0__scatter_kernel i arg3 harg3 arg4 harg4 arg5 harg5 arg6 harg6) K } := by
  refine ⟨?_, ?_, fun E K => ?run⟩
  case run =>
    simp only [cc0__scatter_kernel_eq_skeleton]; unfold cc0__scatter_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS0

end Cert.KernelIdeal.Vox

end
-- ==== Proof.IdealFrame.lean ====
/-
  The voxel-scatter call as a whole. Point by point (`outsAt0`): what the output block's staging buffer and the
  accumulator hold after the body, by the point's position modulo 16 — at 0 the accumulator is cleared and the first
  tile added; at 1 to 14 the tile is added to what the point before left; at 15 the last tile is added and the
  accumulator copied to the output buffer, which is then written back: the only write-back of that block. The region's
  invariant carries the accumulator's contents from each point to the next (`PhiS`). With that proof data the body meets
  its obligation at every point, so every weakly fair execution of @main terminates, the call's arrays end at what the
  write-backs leave and every other buffer as the lines after the call leave it; in particular the two argument arrays
  end as launched.
-/
import proofs.«176212_j76922864272024_1_alg».proof.Proof.IdealRunC

set_option maxRecDepth 16384

noncomputable section

namespace Cert.KernelIdeal.Vox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves behind -/

/-- First tile: nothing is stored into the output buffer (junk read back; never consulted). -/
def out0_A_2 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : firstTile i) (hc1 : ¬lastTile i) (x0 : Vec F S1x4096x128 .bf16) (x1 : Vec F S1x1x4096 .i32) : Vec F S1x2048x128 .f32 :=
  VO0_2.read (Elt F) (VO0_2.writes (Elt F) VO0_2.junk (kernelRun0_A c i arg3 harg3 arg4 harg4 arg5 harg5 arg6 harg6 hc0 hc1 x0 x1).1)
/-- First tile: the two stores into the accumulator cover it. -/
theorem scover0_A_0 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : firstTile i) (hc1 : ¬lastTile i) (x0 : Vec F S1x4096x128 .bf16) (x1 : Vec F S1x1x4096 .i32) (y : S2048x128.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S2048x128.size (by sl_kernel_rfl) y
/-- First tile: what the accumulator holds afterwards. -/
def sout0_A_0 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : firstTile i) (hc1 : ¬lastTile i) (x0 : Vec F S1x4096x128 .bf16) (x1 : Vec F S1x1x4096 .i32) : Vec F S2048x128 .f32 :=
  VS0_0.read (Elt F) (VS0_0.writes (Elt F) VS0_0.junk (kernelRun0_A c i arg3 harg3 arg4 harg4 arg5 harg5 arg6 harg6 hc0 hc1 x0 x1).2.1)

/-- Middle tile: nothing is stored into the output buffer. -/
def out0_B_2 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : ¬lastTile i) (x0 : Vec F S1x4096x128 .bf16) (x1 : Vec F S1x1x4096 .i32) (xs0 : Vec F S2048x128 .f32) : Vec F S1x2048x128 .f32 :=
  VO0_2.read (Elt F) (VO0_2.writes (Elt F) VO0_2.junk (kernelRun0_B c i arg3 harg3 arg4 harg4 arg5 harg5 arg6 harg6 hc0 hc1 x0 x1 xs0).1)
theorem scover0_B_0 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : ¬lastTile i) (x0 : Vec F S1x4096x128 .bf16) (x1 : Vec F S1x1x4096 .i32) (xs0 : Vec F S2048x128 .f32) (y : S2048x128.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S2048x128.size (by sl_kernel_rfl) y
/-- Middle tile: what the accumulator holds afterwards. -/
def sout0_B_0 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : ¬lastTile i) (x0 : Vec F S1x4096x128 .bf16) (x1 : Vec F S1x1x4096 .i32) (xs0 : Vec F S2048x128 .f32) : Vec F S2048x128 .f32 :=
  VS0_0.read (Elt F) (VS0_0.writes (Elt F) VS0_0.junk (kernelRun0_B c i arg3 harg3 arg4 harg4 arg5 harg5 arg6 harg6 hc0 hc1 x0 x1 xs0).2.1)

/-- Last tile: the one store into the output buffer covers it. -/
theorem cover0_C_2 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : lastTile i) (x0 : Vec F S1x4096x128 .bf16) (x1 : Vec F S1x1x4096 .i32) (xs0 : Vec F S2048x128 .f32) (y : S1x2048x128.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x2048x128.size (by sl_kernel_rfl) y
/-- Last tile: what the output buffer holds afterwards. -/
def out0_C_2 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : lastTile i) (x0 : Vec F S1x4096x128 .bf16) (x1 : Vec F S1x1x4096 .i32) (xs0 : Vec F S2048x128 .f32) : Vec F S1x2048x128 .f32 :=
  VO0_2.read (Elt F) (VO0_2.writes (Elt F) VO0_2.junk (kernelRun0_C c i arg3 harg3 arg4 harg4 arg5 harg5 arg6 harg6 hc0 hc1 x0 x1 xs0).1)
theorem scover0_C_0 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : lastTile i) (x0 : Vec F S1x4096x128 .bf16) (x1 : Vec F S1x1x4096 .i32) (xs0 : Vec F S2048x128 .f32) (y : S2048x128.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S2048x128.size (by sl_kernel_rfl) y
/-- Last tile: what the accumulator holds afterwards. -/
def sout0_C_0 (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : lastTile i) (x0 : Vec F S1x4096x128 .bf16) (x1 : Vec F S1x1x4096 .i32) (xs0 : Vec F S2048x128 .f32) : Vec F S2048x128 .f32 :=
  VS0_0.read (Elt F) (VS0_0.writes (Elt F) VS0_0.junk (kernelRun0_C c i arg3 harg3 arg4 harg4 arg5 harg5 arg6 harg6 hc0 hc1 x0 x1 xs0).2.1)

/-! ## Point by point -/

/-- What the output block's staging buffer (first component) and the accumulator (second) hold after the body at
    position `n`: the case the position selects, run on the point's blocks, the accumulator taken from the point before. -/
def outsAt0 (c : Dev nD) : (n : ℕ) → n < cfg0.N → Vec F S1x2048x128 .f32 × Vec F S2048x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((firstTile_iff ⟨0, hn⟩).mpr (Nat.zero_mod _)) (fun h => absurd ((lastTile_iff ⟨0, hn⟩).mp h) (by decide : ¬ (0 % 16 = 15))) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((firstTile_iff ⟨0, hn⟩).mpr (Nat.zero_mod _)) (fun h => absurd ((lastTile_iff ⟨0, hn⟩).mp h) (by decide : ¬ (0 % 16 = 15))) (iblk m c 0 ⟨0, hn⟩) (iblk m c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((firstTile_iff ⟨n + 1, hn⟩).mpr h0) (fun h => h1 ((lastTile_iff ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((firstTile_iff ⟨n + 1, hn⟩).mpr h0) (fun h => h1 ((lastTile_iff ⟨n + 1, hn⟩).mp h)) (iblk m c 0 ⟨n + 1, hn⟩) (iblk m c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((firstTile_iff ⟨n + 1, hn⟩).mp h)) ((lastTile_iff ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((firstTile_iff ⟨n + 1, hn⟩).mp h)) ((lastTile_iff ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((firstTile_iff ⟨n + 1, hn⟩).mp h)) (fun h => h1 ((lastTile_iff ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((firstTile_iff ⟨n + 1, hn⟩).mp h)) (fun h => h1 ((lastTile_iff ⟨n + 1, hn⟩).mp h)) (iblk m c 0 ⟨n + 1, hn⟩) (iblk m c 1 ⟨n + 1, hn⟩) (outsAt0 c n (Nat.lt_of_succ_lt hn)).2)

/-- At a first tile. -/
theorem outsAt0_A (c : Dev nD) (t : Fin cfg0.N) (h0 : t.val % 16 = 0) (h1 : ¬t.val % 16 = 15) :
    outsAt0 m c t.val t.isLt = (out0_A_2 c (grid0.coords t) (ms0_0 t) (hs0_0 t) (ms0_1 t) (hs0_1 t) (ms0_2 t) (hs0_2 t) scM0_0 (Memref.isWhole_whole _) ((firstTile_iff t).mpr h0) (fun h => h1 ((lastTile_iff t).mp h)) (iblk m c 0 t) (iblk m c 1 t), sout0_A_0 c (grid0.coords t) (ms0_0 t) (hs0_0 t) (ms0_1 t) (hs0_1 t) (ms0_2 t) (hs0_2 t) scM0_0 (Memref.isWhole_whole _) ((firstTile_iff t).mpr h0) (fun h => h1 ((lastTile_iff t).mp h)) (iblk m c 0 t) (iblk m c 1 t)) := by
  obtain ⟨n, hn⟩ := t
  cases n with
  | zero => exact rfl
  | succ n => exact (dif_pos h0).trans ((dif_neg h1).trans rfl)

/-- At a middle tile, over what the point before left in the accumulator. -/
theorem outsAt0_B (c : Dev nD) (t : Fin cfg0.N) (h0 : ¬t.val % 16 = 0) (h1 : ¬t.val % 16 = 15) :
    outsAt0 m c t.val t.isLt = (out0_B_2 c (grid0.coords t) (ms0_0 t) (hs0_0 t) (ms0_1 t) (hs0_1 t) (ms0_2 t) (hs0_2 t) scM0_0 (Memref.isWhole_whole _) (fun h => h0 ((firstTile_iff t).mp h)) (fun h => h1 ((lastTile_iff t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((firstTile_iff t).mp h)) (fun h => h1 ((lastTile_iff t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile, over what the point before left in the accumulator. -/
theorem outsAt0_C (c : Dev nD) (t : Fin cfg0.N) (h0 : ¬t.val % 16 = 0) (h1 : t.val % 16 = 15) :
    outsAt0 m c t.val t.isLt = (out0_C_2 c (grid0.coords t) (ms0_0 t) (hs0_0 t) (ms0_1 t) (hs0_1 t) (ms0_2 t) (hs0_2 t) scM0_0 (Memref.isWhole_whole _) (fun h => h0 ((firstTile_iff t).mp h)) ((lastTile_iff t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((firstTile_iff t).mp h)) ((lastTile_iff t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the call was handed; afterwards the
    accumulator at what the point before left in it, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the call finds them; after the body each input buffer still at its block and the output buffer at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body's obligation at a generic point -/

/-- What the body is called with at point `t`: the invariant, nothing owed, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The two input buffers hold their blocks; the point's position modulo 16 says which of the
    three cases it is; the invariant hands over the accumulator at what the point before left (at anything at the very
    first point of the grid) and takes it back at this point's contents; away from the last tile the output buffer is
    handed back as it was found, at the last tile it is left holding the accumulator's final contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  by_cases h0 : t.val % 16 = 0
  · by_cases h1 : t.val % 16 = 15
    · exfalso; omega
    · have hf : firstTile (grid0.coords t) := (firstTile_iff t).mpr h0
      have hl : ¬lastTile (grid0.coords t) := fun h => h1 ((lastTile_iff t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t hl) (noFlush0_2 t hl)]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((firstTile_iff t).mpr h0) (fun h => h1 ((lastTile_iff t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((firstTile_iff t).mpr h0) (fun h => h1 ((lastTile_iff t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun h => h0 (by rw [h])
    by_cases h1 : t.val % 16 = 15
    · have hl : lastTile (grid0.coords t) := (lastTile_iff t).mpr h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t hl], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((firstTile_iff t).mp h)) ((lastTile_iff t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · have hl : ¬lastTile (grid0.coords t) := fun h => h1 ((lastTile_iff t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t hl) (noFlush0_2 t hl)]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((firstTile_iff t).mp h)) (fun h => h1 ((lastTile_iff t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the call is handed is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives that back, the accumulator's contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 4096 := N_0; omega)

/-! ## The run and the frame -/

set_option backward.isDefEq.respectTransparency.types false in
/-- Every weakly fair execution of @main terminates; each of the call's three arrays ends at what the write-backs
    leave, and every other unscoped buffer as the lines after the call leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := after_sub) (hfresh := after_fresh) (hkeep := after_keeps)
    (hmain := hmain m Variants.none) (hA := A_eq m) (hin := hin m) (hout := hout m)

/-- The frame: @main runs to the end and both argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Vox

end
-- ==== Proof.IdealPieces.lean ====
/-
  The accumulator's recurrence. After the body at a grid point the accumulator holds the accumulating store's value:
  the previous contents plus the 0/1 matrix times the tile's features, where "the previous contents" is the cleared
  accumulator at a first tile and what the point before left otherwise. At a last tile the output buffer holds that same
  array, re-laid with a leading axis of one.

  First each case's stores are read back as values: at a first tile the clearing store and then the accumulating store,
  whose read of the accumulator sees the cleared contents; at a middle and at a last tile the one accumulating store over
  the contents on entry; at a last tile, besides, the one store into the output buffer, whose read of the accumulator
  sees what the accumulating store has just written. Each of these stores goes through the whole buffer (the rectangle
  at zero offsets of the buffer's own sizes), so the last one decides the contents. The two statements then follow by
  the point's position modulo 16.
-/
import proofs.«176212_j76922864272024_1_alg».proof.Proof.IdealFrame
import Idealize.ShloMosaic.Lib.Pipeline.Value

set_option maxRecDepth 16384

noncomputable section

namespace Cert.KernelIdeal.Vox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-two whole-buffer rectangle, as the constant function. -/
theorem zeroOff2 : (![0, 0] : Fin 2 → Nat) = fun _ => 0 := funext fun a => by fin_cases a <;> rfl
/-- The zero offsets of a rank-three whole-buffer rectangle, as the constant function. -/
theorem zeroOff3 : (![0, 0, 0] : Fin 3 → Nat) = fun _ => 0 := funext fun a => by fin_cases a <;> rfl

/-- First tile: the accumulator is cleared and then overwritten by the accumulating store, whose own read of the
    accumulator sees the cleared contents; so it ends at the accumulating store's value over the zero array. -/
theorem acc_first (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : firstTile i) (hc1 : ¬lastTile i) (x0 : Vec F S1x4096x128 .bf16) (x1 : Vec F S1x1x4096 .i32) :
    sout0_A_0 c i arg3 harg3 arg4 harg4 arg5 harg5 arg6 harg6 hc0 hc1 x0 x1 = k0_pay2 i x1 x0 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S2048x128) zeroOff2, View.readCov_unit_zero (S := S2048x128) _ zeroOff2]
  simp only [View.readAt_eq_ld, harg3.read_unread, harg4.read_unread, View.ld_unit_zero (S := S1x4096x128) zeroOff3,
    View.ld_unit_zero (S := S1x1x4096) zeroOff3]

/-- Middle tile: the one store into the accumulator covers it, and its value is the accumulating store's over what the
    accumulator held on entry. -/
theorem acc_middle (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : ¬lastTile i) (x0 : Vec F S1x4096x128 .bf16) (x1 : Vec F S1x1x4096 .i32) (xs0 : Vec F S2048x128 .f32) :
    sout0_B_0 c i arg3 harg3 arg4 harg4 arg5 harg5 arg6 harg6 hc0 hc1 x0 x1 xs0 = k0_pay2 i x1 x0 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero (S := S2048x128) zeroOff2]
  simp only [View.readAt_eq_ld, harg3.read_unread, harg4.read_unread, harg6.read_unread, View.ld_unit_zero (S := S1x4096x128) zeroOff3,
    View.ld_unit_zero (S := S1x1x4096) zeroOff3, View.ld_unit_zero (S := S2048x128) zeroOff2]

/-- Last tile: the accumulator is written by the same one covering store, over what it held on entry. -/
theorem acc_last (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : lastTile i) (x0 : Vec F S1x4096x128 .bf16) (x1 : Vec F S1x1x4096 .i32) (xs0 : Vec F S2048x128 .f32) :
    sout0_C_0 c i arg3 harg3 arg4 harg4 arg5 harg5 arg6 harg6 hc0 hc1 x0 x1 xs0 = k0_pay2 i x1 x0 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero (S := S2048x128) zeroOff2]
  simp only [View.readAt_eq_ld, harg3.read_unread, harg4.read_unread, harg6.read_unread, View.ld_unit_zero (S := S1x4096x128) zeroOff3,
    View.ld_unit_zero (S := S1x1x4096) zeroOff3, View.ld_unit_zero (S := S2048x128) zeroOff2]

/-- Last tile: the output buffer is covered by one store of the accumulator re-laid with a leading axis of one, and the
    accumulator it loads is the one the accumulating store has just written. -/
theorem outbuf_last (c : Dev nD) (i : grid0.Coords) (arg3 : Memref sig .tc .vmem S1x4096x128 .bf16) (harg3 : arg3.IsWhole) (arg4 : Memref sig .tc .vmem S1x1x4096 .i32) (harg4 : arg4.IsWhole) (arg5 : Memref sig .tc .vmem S1x2048x128 .f32) (harg5 : arg5.IsWhole) (arg6 : Memref sig .tc .vmem S2048x128 .f32) (harg6 : arg6.IsWhole) (hc0 : ¬firstTile i) (hc1 : lastTile i) (x0 : Vec F S1x4096x128 .bf16) (x1 : Vec F S1x1x4096 .i32) (xs0 : Vec F S2048x128 .f32) :
    out0_C_2 c i arg3 harg3 arg4 harg4 arg5 harg5 arg6 harg6 hc0 hc1 x0 x1 xs0 = k0_pay3 (k0_pay2 i x1 x0 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S1x2048x128) zeroOff3]
  simp only [View.readCov_unit_zero (S := S2048x128) _ zeroOff2, View.readAt_eq_ld, harg3.read_unread, harg4.read_unread, harg6.read_unread,
    View.ld_unit_zero (S := S1x4096x128) zeroOff3, View.ld_unit_zero (S := S1x1x4096) zeroOff3, View.ld_unit_zero (S := S2048x128) zeroOff2]

/-- After the body at point `t` the accumulator is the accumulating store's value over the point's two blocks and
    over zeros (first tile) or the previous point's accumulator. -/
theorem acc_step (c : Dev nD) (t : Fin cfg0.N) :
    (outsAt0 (F := F) m c t.val t.isLt).2
      = k0_pay2 (grid0.coords t) (iblk m c 1 t) (iblk m c 0 t)
          (if h : t.val % 16 = 0 then k0_pay1 (F := F) else (outsAt0 (F := F) m c (t.val - 1) (Nat.lt_of_le_of_lt (Nat.sub_le _ _) t.isLt)).2) := by
  by_cases h0 : t.val % 16 = 0
  · have h1 : ¬t.val % 16 = 15 := by omega
    rw [dif_pos h0, outsAt0_A m c t h0 h1]
    dsimp only
    exact acc_first c (grid0.coords t) (ms0_0 t) (hs0_0 t) (ms0_1 t) (hs0_1 t) (ms0_2 t) (hs0_2 t) scM0_0 (Memref.isWhole_whole _) ((firstTile_iff t).mpr h0) (fun h => h1 ((lastTile_iff t).mp h)) (iblk m c 0 t) (iblk m c 1 t)
  · rw [dif_neg h0]
    by_cases h1 : t.val % 16 = 15
    · rw [outsAt0_C m c t h0 h1]
      dsimp only
      exact acc_last c (grid0.coords t) (ms0_0 t) (hs0_0 t) (ms0_1 t) (hs0_1 t) (ms0_2 t) (hs0_2 t) scM0_0 (Memref.isWhole_whole _) (fun h => h0 ((firstTile_iff t).mp h)) ((lastTile_iff t).mpr h1) (iblk m c 0 t) (iblk m c 1 t) (outsAt0 (F := F) m c (t.val - 1) (Nat.lt_of_le_of_lt (Nat.sub_le _ _) t.isLt)).2
    · rw [outsAt0_B m c t h0 h1]
      dsimp only
      exact acc_middle c (grid0.coords t) (ms0_0 t) (hs0_0 t) (ms0_1 t) (hs0_1 t) (ms0_2 t) (hs0_2 t) scM0_0 (Memref.isWhole_whole _) (fun h => h0 ((firstTile_iff t).mp h)) (fun h => h1 ((lastTile_iff t).mp h)) (iblk m c 0 t) (iblk m c 1 t) (outsAt0 (F := F) m c (t.val - 1) (Nat.lt_of_le_of_lt (Nat.sub_le _ _) t.isLt)).2

/-- At a last tile the output block's buffer is the accumulator, re-laid. -/
theorem out_last (c : Dev nD) (t : Fin cfg0.N) (h : t.val % 16 = 15) :
    (outsAt0 (F := F) m c t.val t.isLt).1 = k0_pay3 (outsAt0 (F := F) m c t.val t.isLt).2 := by
  have h0 : ¬t.val % 16 = 0 := by omega
  rw [outsAt0_C m c t h0 h]
  dsimp only
  exact (outbuf_last c (grid0.coords t) (ms0_0 t) (hs0_0 t) (ms0_1 t) (hs0_1 t) (ms0_2 t) (hs0_2 t) scM0_0 (Memref.isWhole_whole _) (fun h => h0 ((firstTile_iff t).mp h)) ((lastTile_iff t).mpr h) (iblk m c 0 t) (iblk m c 1 t) (outsAt0 (F := F) m c (t.val - 1) (Nat.lt_of_le_of_lt (Nat.sub_le _ _) t.isLt)).2).trans
    (congrArg (k0_pay3 (F := F)) (acc_last c (grid0.coords t) (ms0_0 t) (hs0_0 t) (ms0_1 t) (hs0_1 t) (ms0_2 t) (hs0_2 t) scM0_0 (Memref.isWhole_whole _) (fun h => h0 ((firstTile_iff t).mp h)) ((lastTile_iff t).mpr h) (iblk m c 0 t) (iblk m c 1 t) (outsAt0 (F := F) m c (t.val - 1) (Nat.lt_of_le_of_lt (Nat.sub_le _ _) t.isLt)).2).symm)

end Cert.KernelIdeal.Vox

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.IdealTile.lean ====
/-
  One tile's contribution to the accumulator, entry by entry. The kernel builds a 2048 x 4096 matrix whose entry (r, j)
  is 1.0 when the tile's j-th point has flat voxel index (voxel tile) * 2048 + r and 0.0 otherwise, multiplies it by the
  tile's 4096 x 128 block of widened features, and adds the product to the accumulator. On the extended reals 1 * x = x
  and 0 * x = 0 for every x, so the product's entry (r, ch) is the sum, over the tile's points that fall in voxel r of
  the tile, of the feature's channel ch.
-/
import proofs.«176212_j76922864272024_1_alg».proof.Proof.Gen.KernelIdeal.Skeleton
import proofs.«176212_j76922864272024_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.VoxValue

open Cert.KernelIdeal Cert.KernelIdeal.Gen
open Idealize.ShloMosaic Idealize.ShloMosaic.ValueIdx

/-- The kernel's matrix product is a plain one: rows from the left, columns from the right, one contracted axis. -/
theorem dot_plain : Cert.PlainDot.Plain dot_S2048x4096_S4096x128_S2048x128_1_0_0_1_n_n := ⟨rfl, rfl, rfl, rfl, rfl, rfl⟩
theorem dot_rank : dot_S2048x4096_S4096x128_S2048x128_1_0_0_1_n_n.contr.rank = 1 := rfl
theorem dot_size : dot_S2048x4096_S4096x128_S2048x128_1_0_0_1_n_n.contr.size ⟨0, by rw [dot_rank]; omega⟩ = 4096 := rfl

/-- "Equal" as a one-bit word, widened to 32 bits and converted, is the real 1 or 0. -/
theorem weight (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · subst h
    rw [if_pos rfl]
    have : ((IntOp.cmpi .eq x x).setWidth 32).toInt = 1 := by simp [IntOp.cmpi]
    rw [this]; norm_num
  · rw [if_neg h]
    have hb : (x == y) = false := by simpa using h
    have : ((IntOp.cmpi .eq x y).setWidth 32).toInt = 0 := by simp [IntOp.cmpi, hb]
    rw [this]; norm_num

/-- Row r of the tile plus the tile's first voxel, as 32-bit words, is the word of their sum. -/
theorem row_word (a r : ℕ) : BitVec.ofNat 32 r + BitVec.ofNat 32 a * 2048#32 = BitVec.ofNat 32 (a * 2048 + r) := by
  rw [show (2048#32 : BitVec 32) = BitVec.ofNat 32 2048 from rfl, ← BitVec.ofNat_mul, ← BitVec.ofNat_add, Nat.add_comm]

theorem pay2_apply (i : grid0.Coords) (v4 : Vec Ideal S1x1x4096 .i32) (v15 : Vec Ideal S1x4096x128 .bf16) (v17 : Vec Ideal S2048x128 .f32) (r : Fin 2048) (ch : Fin 128) :
    (k0_pay2 (F := Ideal) i v4 v15 v17 : S2048x128.Idx → EReal) (ix2 r ch)
      = (v17 : S2048x128.Idx → EReal) (ix2 r ch)
        + ∑ j : Fin 4096, (if (v4 : S1x1x4096.Idx → BitVec 32) (ix3 0 0 j) = BitVec.ofNat 32 ((i 1).val * 2048 + r.val)
            then (v15 : S1x4096x128.Idx → EReal) (ix3 0 j ch) else 0) := by
  unfold k0_pay2
  dsimp only
  rw [shapeCast_self, addf_apply]
  refine congrArg (_ + ·) ?_
  refine (Cert.PlainDot.matmul_zero_apply dot_plain dot_rank dot_size none _ _ r ch).trans ?_
  refine Finset.sum_congr rfl fun j _ => ?_
  rw [truncf_apply, sitofp_apply, extui_apply, shapeCast_1ab_ab_apply]
  simp only [cmpi, addi, broadcast_apply]
  rw [iota_single_apply, broadcastTo_1b_ab_apply, shapeCast_a_1a_apply]
  rw [shapeCast_apply v4 shapeCasts_S1x1x4096_S4096 (ix1 j) (ix3 (0 : Fin 1) (0 : Fin 1) j) (by
    rw [Shape.rowMajor_val_three, Shape.rowMajor_val_one]
    show (0 * 1 + 0) * 4096 + j.val = j.val
    omega)]
  rw [weight]
  show (if BitVec.ofNat 32 r.val + BitVec.ofNat 32 (i 1).val * 2048#32 = (v4 : S1x1x4096.Idx → BitVec 32) (ix3 0 0 j) then (1 : EReal) else 0) * _ = _
  rw [row_word, ite_mul, one_mul, zero_mul]
  exact if_congr eq_comm rfl rfl

end Cert.KernelIdeal.VoxValue

end
-- ==== Proof.VoxSpec.lean ====
/-
  The mathematics both programs compute, stated once and free of either program.

  A cloud `b` has 65536 points; point `n` falls in the voxel whose flat index is `fl b n` (a 32-bit word). For a
  per-point quantity `g b n` the PER-VOXEL SUM at voxel `v` is the sum of `g b n` over the points that fall in `v`:
  written as a sum over ALL points of `g b n` where the point's index is `v` and of `0` elsewhere, which is how the
  kernel computes it (a 0/1 matrix times the features) and, reindexed, what a scatter-add of the `g b n` at the
  indices `fl b n` leaves at `v`. The voxel AVERAGE of channel `ch` is the per-voxel sum of the feature divided by
  the per-voxel count, the count floored at one so that an empty voxel reads 0 / 1.
-/
import Idealize.ShloMosaic.PureOps.Ideal
import Idealize.ShloMosaic.Lib.ValueIdx

noncomputable section

open scoped BigOperators

namespace Cert.VoxSpec

open Idealize.ShloMosaic Idealize.ShloMosaic.ValueIdx

/-- The sum of `g b n` over the points `n` of cloud `b` whose flat voxel index is `v`. -/
def voxSum (fl : Fin 16 → Fin 65536 → BitVec 32) (g : Fin 16 → Fin 65536 → EReal) (b : Fin 16) (v : Fin 32768) : EReal :=
  ∑ n : Fin 65536, if fl b n = BitVec.ofNat 32 v.val then g b n else 0

/-- The voxel `(i0, i1, i2)` of the 32 x 32 x 32 grid, flattened row-major. -/
def voxOf (i0 i1 i2 : Fin 32) : Fin 32768 := ⟨(i0.val * 32 + i1.val) * 32 + i2.val, by omega⟩

/-- The word `1.0` in f32 denotes the real one, -/
theorem one_f32 : Ideal.ofBits .f32 0x3F800000#32 = 1 := by
  simp [Ideal.ofBits, Ideal.ieee, -EReal.coe_mul]; norm_num
/-- and so does the word `1.0` in bf16. -/
theorem one_bf16 : Ideal.ofBits .bf16 0x3F80#16 = 1 := by
  simp [Ideal.ofBits, Ideal.ieee, -EReal.coe_mul]; norm_num
/-- The zero words denote zero. -/
theorem zero_f32 : Ideal.ofBits .f32 0x00000000#32 = 0 := by
  simp [Ideal.ofBits, Ideal.ieee]
theorem zero_bf16 : Ideal.ofBits .bf16 0x0000#16 = 0 := by
  simp [Ideal.ofBits, Ideal.ieee]

/-- The average of channel `ch` over the points of cloud `b` that fall in voxel `v`: the per-voxel sum of the feature
    over the per-voxel count floored at one. `X b ch n` is the feature, `fl` the flat voxel index. -/
def voxAvg (X : Fin 16 → Fin 64 → Fin 65536 → EReal) (fl : Fin 16 → Fin 65536 → BitVec 32) (b : Fin 16) (ch : Fin 64) (v : Fin 32768) : EReal :=
  Ideal.div (voxSum fl (fun b n => X b ch n) b v) (max (voxSum fl (fun _ _ => 1) b v) 1)

end Cert.VoxSpec

end
-- ==== Proof.IdealAcc.lean ====
/-
  What the call leaves in its output array, on the extended reals: entry (cloud b, voxel v, channel ch) is the sum, over
  the cloud's 65536 points whose flat index is v, of the widened feature's channel ch. The accumulator after the point
  (b, voxel tile, point tile k) holds the sum over the first k + 1 tiles of 4096 points, each tile's contribution a
  0/1 matrix (row r, column j: is point j's index the tile's voxel r?) times the tile's features; at point tile 15 that is
  the sum over all points, and it is what the one write-back of the block stores.
-/
import proofs.«176212_j76922864272024_1_alg».proof.Proof.IdealPieces
import proofs.«176212_j76922864272024_1_alg».proof.Proof.IdealTile
import proofs.«176212_j76922864272024_1_alg».proof.Proof.VoxSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.VoxValue

open Cert.KernelIdeal Cert.KernelIdeal.Gen Cert.KernelIdeal.Vox Cert.VoxSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The per-voxel sum as a sum over a range of point numbers -/

/-- The flat voxel index of point `n` of cloud `b`, as the call finds it. -/
abbrev flat (c : Dev nD) (b : Fin 16) (n : Fin 65536) : BitVec 32 :=
  (V m c main_v28 : S16x1x65536.Idx → BitVec 32) (ix3 b 0 n)
/-- Channel `ch` of the widened feature of point `n` of cloud `b`, as the call finds it. -/
abbrev feat (c : Dev nD) (ch : Fin 128) (b : Fin 16) (n : Fin 65536) : EReal :=
  (V m c main_v33 : S16x65536x128.Idx → EReal) (ix3 b n ch)

/-- What point number `n` of cloud `b` adds to the voxel whose index word is `w`: `g b n` if the point falls there,
    zero if not (and zero past the cloud's last point). -/
def term (fl : Fin 16 → Fin 65536 → BitVec 32) (g : Fin 16 → Fin 65536 → EReal) (b : Fin 16) (w : BitVec 32) (n : ℕ) : EReal :=
  if h : n < 65536 then (if fl b ⟨n, h⟩ = w then g b ⟨n, h⟩ else 0) else 0

/-- The per-voxel sum is the sum of the points' contributions over the point numbers below 65536. -/
theorem voxSum_eq_range (fl : Fin 16 → Fin 65536 → BitVec 32) (g : Fin 16 → Fin 65536 → EReal) (b : Fin 16) (v : Fin 32768) :
    voxSum fl g b v = ∑ n ∈ Finset.range 65536, term fl g b (BitVec.ofNat 32 v.val) n := by
  unfold voxSum
  rw [← Fin.sum_univ_eq_sum_range (fun n => term fl g b (BitVec.ofNat 32 v.val) n) 65536]
  refine Finset.sum_congr rfl fun n _ => ?_
  unfold term
  rw [dif_pos n.isLt]

/-! ## The grid point's coordinates and the three windows' block indices, in closed form -/

/-- Point `t` is (cloud, voxel tile, point tile) = (t / 256, t / 16 mod 16, t mod 16). -/
theorem coords_facts : ∀ t : Fin cfg0.N, (grid0.coords t 0).val = t.val / 256 ∧ (grid0.coords t 1).val = t.val / 16 % 16
    ∧ (grid0.coords t 2).val = t.val % 16 :=
  (by decide +kernel : ∀ t : Fin grid0.N, (grid0.coords t 0).val = t.val / 256 ∧ (grid0.coords t 1).val = t.val / 16 % 16
    ∧ (grid0.coords t 2).val = t.val % 16)

/-- The feature window's block at `t` is block (cloud, point tile, 0); the index window's is (cloud, 0, point tile);
    the output window's is (cloud, voxel tile, 0). -/
theorem index_facts : ∀ t : Fin cfg0.N,
    win0_0.index t (0 : Fin 3) = t.val / 256 ∧ win0_0.index t (1 : Fin 3) = t.val % 16 ∧ win0_0.index t (2 : Fin 3) = 0
    ∧ win0_1.index t (0 : Fin 3) = t.val / 256 ∧ win0_1.index t (1 : Fin 3) = 0 ∧ win0_1.index t (2 : Fin 3) = t.val % 16
    ∧ win0_2.index t (0 : Fin 3) = t.val / 256 ∧ win0_2.index t (1 : Fin 3) = t.val / 16 % 16 ∧ win0_2.index t (2 : Fin 3) = 0 :=
  (by decide +kernel : ∀ t : Fin grid0.N,
    win0_0.index t (0 : Fin 3) = t.val / 256 ∧ win0_0.index t (1 : Fin 3) = t.val % 16 ∧ win0_0.index t (2 : Fin 3) = 0
    ∧ win0_1.index t (0 : Fin 3) = t.val / 256 ∧ win0_1.index t (1 : Fin 3) = 0 ∧ win0_1.index t (2 : Fin 3) = t.val % 16
    ∧ win0_2.index t (0 : Fin 3) = t.val / 256 ∧ win0_2.index t (1 : Fin 3) = t.val / 16 % 16 ∧ win0_2.index t (2 : Fin 3) = 0)

/-! ## The two input blocks read at an entry -/

/-- The feature window's block at point `t`: 4096 points by 128 channels. -/
abbrev featBlk (c : Dev nD) (t : Fin cfg0.N) : Vec Ideal S1x4096x128 .bf16 := iblk (F := Ideal) m c 0 t
/-- The index window's block at point `t`: the same 4096 points' flat voxel indices. -/
abbrev flatBlk (c : Dev nD) (t : Fin cfg0.N) : Vec Ideal S1x1x4096 .i32 := iblk (F := Ideal) m c 1 t

/-- Entry (0, j, ch) of the feature block at point `t` is the feature of point `(t mod 16) * 4096 + j` of cloud `t / 256`. -/
theorem featBlk_apply (c : Dev nD) (t : Fin cfg0.N) (j : Fin 4096) (ch : Fin 128) (b : Fin 16) (n : Fin 65536)
    (hb : b.val = t.val / 256) (hn : n.val = t.val % 16 * 4096 + j.val) :
    (featBlk m c t : S1x4096x128.Idx → EReal) (ix3 0 j ch) = feat m c ch b n := by
  obtain ⟨e0, e1, e2, -⟩ := index_facts t
  unfold featBlk iblk
  rw [View.read_apply]
  show (V m c main_v33 : S16x65536x128.Idx → EReal) _ = (V m c main_v33 : S16x65536x128.Idx → EReal) _
  congr 1
  funext a
  apply Fin.ext
  match a with
  | ⟨0, _⟩ => show win0_0.index t (0 : Fin 3) * 1 + 1 * 0 = b.val; rw [e0, hb]; omega
  | ⟨1, _⟩ => show win0_0.index t (1 : Fin 3) * 4096 + 1 * j.val = n.val; rw [e1, hn]; omega
  | ⟨2, _⟩ => show win0_0.index t (2 : Fin 3) * 128 + 1 * ch.val = ch.val; rw [e2]; omega

/-- Entry (0, 0, j) of the index block at point `t` is the flat voxel index of that same point. -/
theorem flatBlk_apply (c : Dev nD) (t : Fin cfg0.N) (j : Fin 4096) (b : Fin 16) (n : Fin 65536)
    (hb : b.val = t.val / 256) (hn : n.val = t.val % 16 * 4096 + j.val) :
    (flatBlk m c t : S1x1x4096.Idx → BitVec 32) (ix3 0 0 j) = flat m c b n := by
  obtain ⟨-, -, -, e0, e1, e2, -⟩ := index_facts t
  unfold flatBlk iblk
  rw [View.read_apply]
  show (V m c main_v28 : S16x1x65536.Idx → BitVec 32) _ = (V m c main_v28 : S16x1x65536.Idx → BitVec 32) _
  congr 1
  funext a
  apply Fin.ext
  match a with
  | ⟨0, _⟩ => show win0_1.index t (0 : Fin 3) * 1 + 1 * 0 = b.val; rw [e0, hb]; omega
  | ⟨1, _⟩ => show win0_1.index t (1 : Fin 3) * 1 + 1 * 0 = 0; rw [e1]
  | ⟨2, _⟩ => show win0_1.index t (2 : Fin 3) * 4096 + 1 * j.val = n.val; rw [e2, hn]; omega

/-! ## The cleared accumulator and the output block's re-laying, read at an entry -/

/-- The cleared accumulator is zero everywhere. -/
theorem pay1_apply (r : Fin 2048) (ch : Fin 128) :
    (k0_pay1 (F := Ideal) : S2048x128.Idx → EReal) (ix2 r ch) = 0 := by
  unfold k0_pay1
  rw [shapeCast_self]
  exact zero_f32

/-- The output buffer's entry (0, r, ch) is the accumulator's entry (r, ch). -/
theorem pay3_apply (acc : Vec Ideal S2048x128 .f32) (r : Fin 2048) (ch : Fin 128) :
    (k0_pay3 (F := Ideal) acc : S1x2048x128.Idx → EReal) (ix3 0 r ch) = (acc : S2048x128.Idx → EReal) (ix2 r ch) := by
  unfold k0_pay3
  refine (shapeCast_addUnit_apply (n := 2) ![2048, 128] acc _ (ix3 0 r ch)).trans ?_
  congr 1
  funext a
  match a with
  | ⟨0, _⟩ => rfl
  | ⟨1, _⟩ => rfl

/-! ## One tile's contribution -/

/-- The 0/1 row of voxel word `w` times the feature block at point `t`, channel `ch`: the contributions of the point
    numbers `(t mod 16) * 4096 + j`, `j < 4096`, of cloud `t / 256`. -/
theorem tile_sum (c : Dev nD) (t : Fin cfg0.N) (ch : Fin 128) (b : Fin 16) (hb : b.val = t.val / 256) (w : BitVec 32) :
    (∑ j : Fin 4096, (if (flatBlk m c t : S1x1x4096.Idx → BitVec 32) (ix3 0 0 j) = w
        then (featBlk m c t : S1x4096x128.Idx → EReal) (ix3 0 j ch) else 0))
      = ∑ j ∈ Finset.range 4096, term (flat m c) (feat m c ch) b w (t.val % 16 * 4096 + j) := by
  rw [← Fin.sum_univ_eq_sum_range (fun j => term (flat m c) (feat m c ch) b w (t.val % 16 * 4096 + j)) 4096]
  refine Finset.sum_congr rfl fun j _ => ?_
  have hlt : t.val % 16 * 4096 + j.val < 65536 := by have := j.isLt; omega
  unfold term
  rw [dif_pos hlt, flatBlk_apply m c t j b ⟨_, hlt⟩ hb rfl, featBlk_apply m c t j ch b ⟨_, hlt⟩ hb rfl]

/-! ## The accumulator after each point -/

/-- After the body at position `n` = (cloud, voxel tile, point tile k) the accumulator's entry (r, ch) is the sum of the
    contributions to voxel `(voxel tile) * 2048 + r` of the cloud's first `(k + 1) * 4096` points. -/
theorem acc_eq (c : Dev nD) (ch : Fin 128) (r : Fin 2048) (n : ℕ) : ∀ (hn : n < cfg0.N) (b : Fin 16) (hb : b.val = n / 256),
    ((outsAt0 (F := Ideal) m c n hn).2 : S2048x128.Idx → EReal) (ix2 r ch)
      = ∑ p ∈ Finset.range ((n % 16 + 1) * 4096),
          term (flat m c) (feat m c ch) b (BitVec.ofNat 32 (n / 16 % 16 * 2048 + r.val)) p := by
  induction n using Nat.strong_induction_on with
  | _ n ih =>
    intro hn b hb
    have hN : cfg0.N = 4096 := N_0
    obtain ⟨-, hc1, -⟩ := coords_facts ⟨n, hn⟩
    refine (congrFun (acc_step (F := Ideal) m c ⟨n, hn⟩) (ix2 r ch)).trans ?_
    refine (pay2_apply (grid0.coords ⟨n, hn⟩) (flatBlk m c ⟨n, hn⟩) (featBlk m c ⟨n, hn⟩) _ r ch).trans ?_
    rw [hc1, tile_sum m c ⟨n, hn⟩ ch b hb, show (n % 16 + 1) * 4096 = n % 16 * 4096 + 4096 from by omega, Finset.sum_range_add]
    congr 1
    by_cases h0 : n % 16 = 0
    · rw [dif_pos h0, pay1_apply, h0]
      simp
    · rw [dif_neg h0]
      have hlt : n - 1 < n := by omega
      have e := ih (n - 1) hlt (by omega) b (by omega)
      rw [show (n - 1) / 16 % 16 = n / 16 % 16 from by omega, show ((n - 1) % 16 + 1) * 4096 = n % 16 * 4096 from by omega] at e
      exact e

/-! ## What the write-backs leave in the output array -/

/-- The array of per-voxel sums: entry (cloud, voxel, channel). -/
def sums (c : Dev nD) : S16x32768x128.Idx → EReal := fun i =>
  voxSum (flat m c) (feat m c (i 2)) (i 0) (i 1)

/-- At a last tile the output buffer's entry (0, r, ch) is the per-voxel sum at voxel `(voxel tile) * 2048 + r`: the
    accumulator then holds the contributions of all `16 * 4096` points of the cloud. -/
theorem out_entry (c : Dev nD) (t : Fin cfg0.N) (h15 : t.val % 16 = 15) (r : Fin 2048) (ch : Fin 128) (b : Fin 16) (v : Fin 32768)
    (hb : b.val = t.val / 256) (hv : v.val = t.val / 16 % 16 * 2048 + r.val) :
    (k0_pay3 (F := Ideal) (outsAt0 (F := Ideal) m c t.val t.isLt).2 : S1x2048x128.Idx → EReal) (ix3 0 r ch)
      = sums m c (ix3 b v ch) := by
  rw [pay3_apply, acc_eq m c ch r t.val t.isLt b hb, h15, show (15 + 1) * 4096 = 65536 from rfl]
  show _ = voxSum (flat m c) (feat m c ch) b v
  rw [voxSum_eq_range, hv]

/-- A full output block `X` is the window's block of a whole array `G` as soon as it is so entry by entry: entry `j` of
    the block sits in the array at the block's position plus `j`. -/
theorem blk_eq_of_entries (t : Fin cfg0.N) (X : Vec Ideal S1x2048x128 .f32) (G : S16x32768x128.Idx → EReal)
    (h : ∀ j : S1x2048x128.Idx, (X : S1x2048x128.Idx → EReal) ((cfg0.win 2).xinj (grid0.coords t) j) = G (((cfg0.win 2).blk t).view.emb j)) :
    (cfg0.win 2).cut (grid0.coords t) X = ((cfg0.win 2).blk t).view.read (Elt Ideal) G :=
  funext h

/-- What a last tile writes back is its block of the array of per-voxel sums: block (cloud, voxel tile) holds the
    voxels `(voxel tile) * 2048 + r`, `r < 2048`, of the cloud, all channels. -/
theorem flushed_eq (c : Dev nD) (t : Fin cfg0.N) (hf : (cfg0.win 2).flush t = true) :
    (dats (F := Ideal) m 0 c).flushed 2 t = ((cfg0.win 2).blk t).view.read (Elt Ideal) (sums m c) := by
  have hN : cfg0.N = 4096 := N_0
  have htN : t.val < 4096 := hN ▸ t.isLt
  have h15 : t.val % 16 = 15 := (flush0_2 t).mp hf
  obtain ⟨-, -, -, -, -, -, e0, e1, e2⟩ := index_facts t
  show (cfg0.win 2).cut (grid0.coords t) ((dats (F := Ideal) m 0 c).after 2 t) = _
  rw [after0_2, out_last (F := Ideal) m c t h15]
  refine blk_eq_of_entries t _ (sums m c) fun j => ?_
  have hj0 : (j 0).val < 1 := (j 0).isLt
  have hj1 : (j 1).val < 2048 := (j 1).isLt
  have hj2 : (j 2).val < 128 := (j 2).isLt
  have hx : (cfg0.win 2).xinj (grid0.coords t) j = (ix3 0 ⟨(j 1).val, hj1⟩ ⟨(j 2).val, hj2⟩ : S1x2048x128.Idx) := by
    funext a
    apply Fin.ext
    match a with
    | ⟨0, _⟩ => show (j 0).val = 0; omega
    | ⟨1, _⟩ => rfl
    | ⟨2, _⟩ => rfl
  have he : ((cfg0.win 2).blk t).view.emb j
      = (ix3 ⟨t.val / 256, by omega⟩ ⟨t.val / 16 % 16 * 2048 + (j 1).val, by omega⟩ ⟨(j 2).val, hj2⟩ : S16x32768x128.Idx) := by
    funext a
    apply Fin.ext
    match a with
    | ⟨0, _⟩ => show win0_2.index t (0 : Fin 3) * 1 + 1 * (j 0).val = t.val / 256; rw [e0]; omega
    | ⟨1, _⟩ => show win0_2.index t (1 : Fin 3) * 2048 + 1 * (j 1).val = t.val / 16 % 16 * 2048 + (j 1).val; rw [e1]; omega
    | ⟨2, _⟩ => show win0_2.index t (2 : Fin 3) * 128 + 1 * (j 2).val = (j 2).val; rw [e2]; omega
  rw [hx, he]
  exact out_entry m c t h15 _ _ _ _ rfl rfl

/-- Every entry of the output array lies in the block written back at the last tile of its cloud and voxel tile. -/
theorem cover (i : S16x32768x128.Idx) :
    ∃ t : Fin cfg0.N, (cfg0.win 2).flush t = true ∧ i ∈ ((cfg0.win 2).blk t).view.set := by
  have hN : cfg0.N = 4096 := N_0
  have h0 : (i 0).val < 16 := (i 0).isLt
  have h1 : (i 1).val < 32768 := (i 1).isLt
  have h2 : (i 2).val < 128 := (i 2).isLt
  obtain ⟨t, ht⟩ : ∃ t : Fin cfg0.N, t.val = ((i 0).val * 16 + (i 1).val / 2048) * 16 + 15 :=
    ⟨⟨((i 0).val * 16 + (i 1).val / 2048) * 16 + 15, by rw [hN]; omega⟩, rfl⟩
  obtain ⟨-, -, -, -, -, -, e0, e1, e2⟩ := index_facts t
  refine ⟨t, (flush0_2 t).mpr (by omega), ?_⟩
  show i ∈ ((View.whole main_v34).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e0, ht]; omega
  | ⟨1, _⟩ =>
    show win0_2.index t (1 : Fin 3) * 2048 ≤ (i 1).val ∧ (i 1).val < win0_2.index t (1 : Fin 3) * 2048 + 2048
    rw [e1, ht]; omega
  | ⟨2, _⟩ =>
    show win0_2.index t (2 : Fin 3) * 128 ≤ (i 2).val ∧ (i 2).val < win0_2.index t (2 : Fin 3) * 128 + 128
    rw [e2]; omega

/-- So the output array ends holding the per-voxel sums. -/
theorem final (c : Dev nD) : (dats (F := Ideal) m 0 c).arrAt 2 cfg0.N = sums m c :=
  (dats (F := Ideal) m 0 c).arrAt_eq_of_cover 2 (sums m c) (flushed_eq m c) cover

/-- The per-voxel sums the call writes: entry `(b, v, ch)` of its output array after the run. -/
theorem sums_eq (c : Dev nD) (b : Fin 16) (v : Fin 32768) (ch : Fin 128) :
    ((dats (F := Ideal) m 0 c).arrAt 2 cfg0.N : S16x32768x128.Idx → EReal) (ix3 b v ch)
      = voxSum (fun b n => (V m c main_v28 : S16x1x65536.Idx → BitVec 32) (ix3 b 0 n))
               (fun b n => (V m c main_v33 : S16x65536x128.Idx → EReal) (ix3 b n ch)) b v :=
  congrFun (final m c) (ix3 b v ch)

end Cert.KernelIdeal.VoxValue

end
-- ==== Proof.IdealHost.lean ====
/-
  The host lines around the call, read at an index on the extended reals. Before it: the widened features are the
  feature of channel ch < 64 at (b, ch, n), one at channel 64 and zero above; the flat index and the voxel coordinates
  are the same operations of the points as the reference's. After it: entry (b, ch, i0, i1, i2) of the result is the
  per-voxel sum of channel ch over the per-voxel sum of channel 64 floored at one, at the voxel (i0, i1, i2).
-/
import proofs.«176212_j76922864272024_1_alg».proof.Proof.IdealFrame
import proofs.«176212_j76922864272024_1_alg».proof.Proof.VoxSpec
import proofs.«176212_j76922864272024_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.VoxHost

open Cert.KernelIdeal Cert.KernelIdeal.Gen Cert.KernelIdeal.Vox Cert.VoxSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The lines before the call

The values below are read off the lines one operation at a time; each is then read at an index. -/

/-- An operation of three operands whose function uses the family of their contents only through its three
    members: the result buffer takes the function of the three contents, each at its own reference. -/
theorem nary3_result {x a b y : Ref sig .tc}
    (g : x.ty.Contents (Elt Ideal) → a.ty.Contents (Elt Ideal) → b.ty.Contents (Elt Ideal) → y.ty.Contents (Elt Ideal)) (hxs hy)
    (G : Valuation τ sig (Elt Ideal)) :
    (StableHlo.nary (τ := τ) ![x, a, b] y (fun u => g (u 0) (u 1) (u 2)) hxs hy).result G (no_index (Proc.devRef .tc y))
      = g (G (Proc.devRef .tc x)) (G (Proc.devRef .tc a)) (G (Proc.devRef .tc b)) := by
  rw [StableHlo.nary_result]; rfl

/-- The widening as a function of its three pieces: 64 feature channels, one channel, 63 channels, side by side
    along the channel axis. -/
def widen (p : S16x65536x64.Idx → EReal) (q : S16x65536x1.Idx → EReal) (r : S16x65536x63.Idx → EReal) : S16x65536x128.Idx → EReal :=
  concatenate S16x65536x128 2 [⟨S16x65536x64, p⟩, ⟨S16x65536x1, q⟩, ⟨S16x65536x63, r⟩]
    concatenates_S16x65536x64_S16x65536x1_S16x65536x63_S16x65536x128_d2

/-- The widening read at `(b, n, ch)`: the first piece at channel `ch` below 64, the second piece at channel 64,
    the third piece at channel `ch - 65` above. -/
theorem widen_apply (p : S16x65536x64.Idx → EReal) (q : S16x65536x1.Idx → EReal) (r : S16x65536x63.Idx → EReal)
    (b : Fin 16) (n : Fin 65536) (ch : Fin 128) :
    widen p q r (ix3 b n ch)
      = (if h : ch.val < 64 then p (ix3 b n ⟨ch.val, h⟩)
         else if h' : ch.val = 64 then q (ix3 b n 0) else r (ix3 b n ⟨ch.val - 65, by omega⟩)) := by
  unfold widen
  by_cases h : ch.val < 64
  · -- the first piece spans channels 0 to 63
    rw [dif_pos h]
    exact concatenate_apply_piece (2 : Fin 3) _ _ (ix3 b n ch) 0 (by show 0 < 3; omega) S16x65536x64 p rfl rfl 0 rfl (ix3 b n ⟨ch.val, h⟩)
      (fun d hd => match d, hd with
        | ⟨0, _⟩, _ => rfl | ⟨1, _⟩, _ => rfl | ⟨2, _⟩, hd => absurd rfl hd)
      (Nat.zero_add _)
  · rw [dif_neg h]
    by_cases h' : ch.val = 64
    · -- the second piece is channel 64 alone: 64 channels come before it
      rw [dif_pos h']
      exact concatenate_apply_piece (2 : Fin 3) _ _ (ix3 b n ch) 1 (by show 1 < 3; omega) S16x65536x1 q rfl rfl 64 rfl (ix3 b n 0)
        (fun d hd => match d, hd with
          | ⟨0, _⟩, _ => rfl | ⟨1, _⟩, _ => rfl | ⟨2, _⟩, hd => absurd rfl hd)
        (by show 64 + 0 = ch.val; omega)
    · -- the third piece spans channels 65 to 127: 65 channels come before it
      rw [dif_neg h']
      exact concatenate_apply_piece (2 : Fin 3) _ _ (ix3 b n ch) 2 (by show 2 < 3; omega) S16x65536x63 r rfl rfl 65 rfl (ix3 b n ⟨ch.val - 65, by omega⟩)
        (fun d hd => match d, hd with
          | ⟨0, _⟩, _ => rfl | ⟨1, _⟩, _ => rfl | ⟨2, _⟩, hd => absurd rfl hd)
        (by show 65 + (ch.val - 65) = ch.val; omega)

/-- The widened features are the features transposed to (cloud, point, channel), a column of ones and 63 columns
    of zeros, side by side along the channel axis. -/
theorem feat_term (c : Dev nD) :
    (V m c main_v33 : S16x65536x128.Idx → EReal)
      = widen
          (truncf (F := Ideal) .bf16 (transpose S16x65536x64 [0, 2, 1] (m ((c : Thread nD τ).loc main_arg0) : S16x64x65536.Idx → EReal) transposes_S16x64x65536_S16x65536x64_0_2_1) bitsLt_bf16_f32)
          (broadcastInDim S16x65536x1 ![] bcast_S_S16x65536x1 (constant (F := Ideal) S_ .bf16 0x3F80#16))
          (broadcastInDim S16x65536x63 ![] bcast_S_S16x65536x63 (constant (F := Ideal) S_ .bf16 0x0000#16)) := by
  dsimp only [V, V0, linesBefore]
  simp only [hostOps0, hostOps0_1, hostOps0_2, hostOps0_3, List.flatten_cons, List.flatten_nil, List.append_nil, List.cons_append, List.nil_append]
  simp only [StableHlo.after_cons, StableHlo.after_nil]
  -- the last line is the concatenation of three buffers the earlier lines wrote
  rw [nary3_result (x := main_v30) (a := main_v31) (b := main_v32) (y := main_v33)
    (fun (p : S16x65536x64.Idx → EReal) (q : S16x65536x1.Idx → EReal) (r : S16x65536x63.Idx → EReal) =>
      (concatenate S16x65536x128 2 [⟨S16x65536x64, p⟩, ⟨S16x65536x1, q⟩, ⟨S16x65536x63, r⟩]
        concatenates_S16x65536x64_S16x65536x1_S16x65536x63_S16x65536x128_d2 : S16x65536x128.Idx → EReal))]
  show widen _ _ _ = widen _ _ _
  -- piece by piece: the rounded transpose of the features, the ones, the zeros
  refine congr (congr (congrArg widen ?_) ?_) ?_
  all_goals (open Idealize.ShloMosaic.StableHlo in after_results_simp)

/-- The widened features at `(b, n, ch)`. -/
theorem entry_feat (c : Dev nD) (b : Fin 16) (n : Fin 65536) (ch : Fin 128) :
    (V m c main_v33 : S16x65536x128.Idx → EReal) (ix3 b n ch)
      = (if h : ch.val < 64 then (m ((c : Thread nD τ).loc main_arg0) : S16x64x65536.Idx → EReal) (ix3 b ⟨ch.val, h⟩ n)
        else if ch.val = 64 then 1 else 0 : EReal) := by
  rw [feat_term, widen_apply]
  by_cases h : ch.val < 64
  · -- on the extended reals the change of float format is the identity; the transpose swaps point and channel
    simp only [dif_pos h]
    show transpose S16x65536x64 [0, 2, 1] _ _ (ix3 b n ⟨ch.val, h⟩) = _
    exact transpose_apply [0, 2, 1] _ _ (ix3 b n ⟨ch.val, h⟩) (ix3 b ⟨ch.val, h⟩ n) (fun d => match d with
      | ⟨0, _⟩ => rfl | ⟨1, _⟩ => rfl | ⟨2, _⟩ => rfl)
  · simp only [dif_neg h]
    by_cases h' : ch.val = 64
    · -- the splat of the word 1.0
      simp only [dif_pos h', if_pos h']
      rw [broadcastInDim_apply (s := S_) (t := S16x65536x1) ![] _ _ (ix3 b n (0 : Fin 1)) ix0 (fun a => a.elim0)]
      exact one_bf16
    · -- the splat of the word 0.0
      simp only [dif_neg h', if_neg h']
      rw [broadcastInDim_apply (s := S_) (t := S16x65536x63) ![] _ _ (ix3 b n (⟨ch.val - 65, by omega⟩ : Fin 63)) ix0 (fun a => a.elim0)]
      exact zero_bf16

/-- The flat index the call reads is the reference's flat index of the same points, given a unit middle axis. -/
theorem idx_term (c : Dev nD) :
    (V m c main_v28 : S16x1x65536.Idx → BitVec 32)
      = shapeCast S16x1x65536 (Cert.ReferenceIdeal.Read.val_main_v27 (F := Ideal) (m ((c : Thread nD τ).loc main_arg1)) : S16x65536.Idx → BitVec 32)
          shapeCasts_S16x65536_S16x1x65536 := by
  dsimp only [V, V0, linesBefore]
  simp only [hostOps0, hostOps0_1, hostOps0_2, hostOps0_3, List.flatten_cons, List.flatten_nil, List.append_nil, List.cons_append, List.nil_append]
  open Idealize.ShloMosaic.StableHlo in after_results_simp
  -- line for line the reference's operations on the points
  rfl

/-- The flat voxel index the call reads is the reference's, of the same points. -/
theorem entry_idx (c : Dev nD) (b : Fin 16) (n : Fin 65536) :
    (V m c main_v28 : S16x1x65536.Idx → BitVec 32) (ix3 b 0 n)
      = Cert.ReferenceIdeal.Read.val_main_v27 (F := Ideal) (m ((c : Thread nD τ).loc main_arg1)) (ix2 b n) := by
  rw [idx_term]
  -- (b, 0, n) of [16, 1, 65536] and (b, n) of [16, 65536] are the same row-major position
  refine shapeCast_apply _ _ (ix3 b 0 n) (ix2 b n) ?_
  rw [Shape.rowMajor_val_two, Shape.rowMajor_val_three]
  show b.val * 65536 + n.val = (b.val * 1 + 0) * 65536 + n.val
  omega

/-- The voxel coordinates are the reference's, of the same points. -/
theorem entry_coords (c : Dev nD) :
    (V m c main_v13 : S16x3x65536.Idx → EReal) = Cert.ReferenceIdeal.Read.val_main_v13 (F := Ideal) (m ((c : Thread nD τ).loc main_arg1)) := by
  dsimp only [V, V0, linesBefore]
  simp only [hostOps0, hostOps0_1, hostOps0_2, hostOps0_3, List.flatten_cons, List.flatten_nil, List.append_nil, List.cons_append, List.nil_append]
  open Idealize.ShloMosaic.StableHlo in after_results_simp
  -- line for line the reference's operations on the points: the affine map, then the clip to [0, 31]
  rfl

/-! ## The lines after the call -/

/-- The eleven lines after the call, as one function of the call's output array: the 64 feature channels over
    the count channel floored at one, voxel by voxel, then laid out as (cloud, channel, i0, i1, i2). -/
def tailOf (A : S16x32768x128.Idx → EReal) : S16x64x32x32x32.Idx → EReal :=
  transpose S16x64x32x32x32 [0, 4, 1, 2, 3]
    (shapeCast S16x32x32x32x64
      (Host.divf (F := Ideal) (φ := .f32)
        (extractStridedSlice S16x32768x64 ![0, 0, 0] A slices_S16x32768x128_S16x32768x64_0_0_0)
        (broadcastInDim S16x32768x64 ![0, 1, 2] bcast_S16x32768x1_S16x32768x64_0_1_2
          (broadcastInDim S16x32768x1 ![0, 1] bcast_S16x32768_S16x32768x1_0_1
            (maximumf (F := Ideal) (φ := .f32)
              (shapeCast S16x32768 (extractStridedSlice S16x32768x1 ![0, 0, 64] A slices_S16x32768x128_S16x32768x1_0_0_64) shapeCasts_S16x32768x1_S16x32768)
              (broadcastInDim S16x32768 ![] bcast_S_S16x32768 (constant (F := Ideal) S_ .f32 0x3F800000#32))))))
      shapeCasts_S16x32768x64_S16x32x32x32x64)
    transposes_S16x32x32x32x64_S16x64x32x32x32_0_4_1_2_3

/-- Entry `(b, ch, i0, i1, i2)` of the lines after the call: channel `ch` of the output array at voxel
    `(i0, i1, i2)` of cloud `b`, over channel 64 there floored at one. -/
theorem tailOf_apply (A : S16x32768x128.Idx → EReal) (b : Fin 16) (ch : Fin 64) (i0 i1 i2 : Fin 32) :
    tailOf A (ix5 b ch i0 i1 i2)
      = Ideal.div (A (ix3 b (voxOf i0 i1 i2) ⟨ch.val, by omega⟩)) (max (A (ix3 b (voxOf i0 i1 i2) ⟨64, by omega⟩)) 1) := by
  unfold tailOf
  -- the transpose moves the channel axis last; the reshape flattens the three grid axes row-major
  rw [transpose_apply [0, 4, 1, 2, 3] _ _ (ix5 b ch i0 i1 i2) (ix5 b i0 i1 i2 ch) (fun d => match d with
    | ⟨0, _⟩ => rfl | ⟨1, _⟩ => rfl | ⟨2, _⟩ => rfl | ⟨3, _⟩ => rfl | ⟨4, _⟩ => rfl)]
  rw [shapeCast_apply _ _ (ix5 b i0 i1 i2 ch) (ix3 b (voxOf i0 i1 i2) ch) (by
    rw [Shape.rowMajor_val_three, Shape.rowMajor_val_five]
    show (b.val * 32768 + ((i0.val * 32 + i1.val) * 32 + i2.val)) * 64 + ch.val
      = (((b.val * 32 + i0.val) * 32 + i1.val) * 32 + i2.val) * 64 + ch.val
    omega)]
  -- the quotient is entrywise; its numerator is channel ch of the array
  show Ideal.div _ _ = _
  congr 1
  · exact extractStridedSlice_apply ![0, 0, 0] A _ (ix3 b (voxOf i0 i1 i2) ch) (ix3 b (voxOf i0 i1 i2) ⟨ch.val, by omega⟩) (fun a => match a with
      | ⟨0, _⟩ => (Nat.zero_add _).symm | ⟨1, _⟩ => (Nat.zero_add _).symm | ⟨2, _⟩ => (Nat.zero_add _).symm)
  -- its denominator: the two broadcasts repeat the per-voxel value along the channel axis
  · rw [broadcastInDim_apply (s := S16x32768x1) (t := S16x32768x64) ![0, 1, 2] _ _ (ix3 b (voxOf i0 i1 i2) ch) (ix3 b (voxOf i0 i1 i2) (0 : Fin 1)) (fun a => match a with
      | ⟨0, _⟩ => rfl | ⟨1, _⟩ => rfl | ⟨2, _⟩ => rfl)]
    rw [broadcastInDim_apply (s := S16x32768) (t := S16x32768x1) ![0, 1] _ _ (ix3 b (voxOf i0 i1 i2) (0 : Fin 1)) (ix2 b (voxOf i0 i1 i2)) (fun a => match a with
      | ⟨0, _⟩ => rfl | ⟨1, _⟩ => rfl)]
    -- the maximum is entrywise: channel 64 of the array against the splat of the word 1.0
    show max _ _ = _
    congr 1
    · rw [shapeCast_apply (s := S16x32768x1) (t := S16x32768) _ _ (ix2 b (voxOf i0 i1 i2)) (ix3 b (voxOf i0 i1 i2) (0 : Fin 1)) (by
        rw [Shape.rowMajor_val_three, Shape.rowMajor_val_two]
        show (b.val * 32768 + (voxOf i0 i1 i2).val) * 1 + 0 = b.val * 32768 + (voxOf i0 i1 i2).val
        omega)]
      exact extractStridedSlice_apply (s := S16x32768x128) (t := S16x32768x1) ![0, 0, 64] A _ (ix3 b (voxOf i0 i1 i2) (0 : Fin 1)) (ix3 b (voxOf i0 i1 i2) ⟨64, by omega⟩) (fun a => match a with
        | ⟨0, _⟩ => (Nat.zero_add _).symm | ⟨1, _⟩ => (Nat.zero_add _).symm | ⟨2, _⟩ => rfl)
    · exact one_f32

/-- The result of @main is the lines after the call applied to the call's output array. -/
theorem tail_term (c : Dev nD) :
    (Pipeline.afterTail₀ cfgs (dats (F := Ideal) m) 0 (V0 m) [hostOps1] c main_v44 : S16x64x32x32x32.Idx → EReal)
      = tailOf ((dats (F := Ideal) m 0 c).arrAt 2 cfg0.N : S16x32768x128.Idx → EReal) := by
  unfold Pipeline.afterTail₀
  show StableHlo.after hostOps1 _ (Proc.devRef .tc main_v44) = _
  open Idealize.ShloMosaic.StableHlo in after_results
  -- the lines read the per-voxel sums where the call left them
  rw [Pipeline.withArrays_arr spec0 launch0.win.arr_inj c _ _ 2]
  rfl

/-- The result, entry by entry, from the call's output array `A`. -/
theorem tail_vox (c : Dev nD) (b : Fin 16) (ch : Fin 64) (i0 i1 i2 : Fin 32) :
    (Pipeline.afterTail₀ cfgs (dats (F := Ideal) m) 0 (V0 m) [hostOps1] c main_v44 : S16x64x32x32x32.Idx → EReal) (ix5 b ch i0 i1 i2)
      = Ideal.div (((dats (F := Ideal) m 0 c).arrAt 2 cfg0.N : S16x32768x128.Idx → EReal) (ix3 b (voxOf i0 i1 i2) ⟨ch.val, by omega⟩))
          (max (((dats (F := Ideal) m 0 c).arrAt 2 cfg0.N : S16x32768x128.Idx → EReal) (ix3 b (voxOf i0 i1 i2) ⟨64, by omega⟩)) 1) := by
  rw [tail_term, tailOf_apply]

end Cert.KernelIdeal.VoxHost

end
-- ==== Proof.ScatterSum.lean ====
/-
  A scatter-add whose every update row p goes to the row seg p of the operand, read at a row: the operand's entry plus
  the sum of the updates whose row is that one. With rows laid out cloud by cloud (row = cloud * 65536 + point) and
  seg = flat index + cloud * 32768, the flat index below 32768, "seg p is row cloud' * 32768 + v" holds exactly when
  p's cloud is cloud' and its flat index is v: the sum is the per-voxel sum. And a coordinate clipped to [0, 31], rounded
  to the nearest integer and converted is a word in 0..31, so the flat index is below 32768.
-/
import proofs.«176212_j76922864272024_1_alg».proof.Proof.Gen.ReferenceIdeal
import proofs.«176212_j76922864272024_1_alg».proof.Proof.VoxSpec
import Idealize.ShloMosaic.Lib.ValueIdx

noncomputable section

open scoped BigOperators

namespace Cert.VoxSpec

open Cert.ReferenceIdeal Cert.ReferenceIdeal.Gen Cert.VoxSpec
open Idealize.ShloMosaic Idealize.ShloMosaic.ValueIdx

/-- A number below 524288, as a 32-bit word read signed, is itself: it is below 2^31. -/
theorem toInt_small (k : ℕ) (hk : k < 524288) : (BitVec.ofNat 32 k).toInt = (k : ℤ) := by
  have ht : (BitVec.ofNat 32 k).toNat = k := by
    rw [BitVec.toNat_ofNat, Nat.mod_eq_of_lt (by omega)]
  rw [BitVec.toInt_eq_toNat_of_lt (by rw [ht]; omega), ht]

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The 64-channel scatter: where update `(p, c)` lands

On the row axis the start is row `p`'s index word read signed and the window coordinate is 0 (the axis is an inserted
one); on the channel axis the start is 0 (the map does not name it) and the window coordinate is the update's channel. -/

/-- The start on the row axis is the index word of the update's row, read signed. -/
theorem start_row (idx : S1048576x1.Idx → BitVec 32) (p : Fin 1048576) (c : Fin 64) :
    scatter_S524288x64_S1048576x1_S1048576x64_1_0_0_1.start (ix2 p c) idx (0 : Fin 2) = (idx (ix2 p 0)).toInt := by
  unfold ScatterDims.start
  rw [dif_pos (show (0 : Fin 2) ∈ scatter_S524288x64_S1048576x1_S1048576x64_1_0_0_1.scatterDimsToOperandDims from
    List.mem_singleton.mpr rfl)]
  congr 2
  funext b
  refine Fin.ext ?_
  match b with
  | ⟨0, _⟩ => rfl
  | ⟨1, _⟩ => rfl

/-- The start on the channel axis is 0. -/
theorem start_ch (idx : S1048576x1.Idx → BitVec 32) (p : Fin 1048576) (c : Fin 64) :
    scatter_S524288x64_S1048576x1_S1048576x64_1_0_0_1.start (ix2 p c) idx (1 : Fin 2) = 0 := by
  unfold ScatterDims.start
  rw [dif_neg (by decide)]

/-- The window coordinate on the row axis is 0. -/
theorem window_row (p : Fin 1048576) (c : Fin 64) :
    scatter_S524288x64_S1048576x1_S1048576x64_1_0_0_1.window (ix2 p c) (0 : Fin 2) = 0 := by
  unfold ScatterDims.window
  rw [dif_neg (by decide)]

/-- The window coordinate on the channel axis is the update's channel. -/
theorem window_ch (p : Fin 1048576) (c : Fin 64) :
    scatter_S524288x64_S1048576x1_S1048576x64_1_0_0_1.window (ix2 p c) (1 : Fin 2) = c.val := by
  unfold ScatterDims.window
  rw [dif_pos (by decide)]
  rfl

/-- Every update `(p, c)` lands inside the operand, at row `seg p` and its own channel `c`. -/
theorem resultIdx_rows (idx : S1048576x1.Idx → BitVec 32) (seg : Fin 1048576 → ℕ)
    (hseg : ∀ p, idx (ix2 p 0) = BitVec.ofNat 32 (seg p)) (hlt : ∀ p, seg p < 524288) (p : Fin 1048576) (c : Fin 64) :
    scatter_S524288x64_S1048576x1_S1048576x64_1_0_0_1.resultIdx? (ix2 p c) idx = some (ix2 ⟨seg p, hlt p⟩ c) := by
  have hs0 : scatter_S524288x64_S1048576x1_S1048576x64_1_0_0_1.start (ix2 p c) idx (0 : Fin 2) = (seg p : ℤ) := by
    rw [start_row, hseg p, toInt_small _ (hlt p)]
  have hs1 := start_ch idx p c
  have hw0 := window_row p c
  have hw1 := window_ch p c
  have hp := hlt p
  have hc := c.isLt
  unfold ScatterDims.resultIdx?
  rw [dif_pos]
  · congr 1
    funext a
    refine Fin.ext ?_
    match a with
    | ⟨0, _⟩ =>
      show (scatter_S524288x64_S1048576x1_S1048576x64_1_0_0_1.start (ix2 p c) idx (0 : Fin 2)
        + scatter_S524288x64_S1048576x1_S1048576x64_1_0_0_1.window (ix2 p c) (0 : Fin 2)).toNat = seg p
      rw [hs0, hw0]; omega
    | ⟨1, _⟩ =>
      show (scatter_S524288x64_S1048576x1_S1048576x64_1_0_0_1.start (ix2 p c) idx (1 : Fin 2)
        + scatter_S524288x64_S1048576x1_S1048576x64_1_0_0_1.window (ix2 p c) (1 : Fin 2)).toNat = c.val
      rw [hs1, hw1]; omega
  · intro a
    match a with
    | ⟨0, _⟩ =>
      show 0 ≤ scatter_S524288x64_S1048576x1_S1048576x64_1_0_0_1.start (ix2 p c) idx (0 : Fin 2)
          + scatter_S524288x64_S1048576x1_S1048576x64_1_0_0_1.window (ix2 p c) (0 : Fin 2)
        ∧ scatter_S524288x64_S1048576x1_S1048576x64_1_0_0_1.start (ix2 p c) idx (0 : Fin 2)
          + scatter_S524288x64_S1048576x1_S1048576x64_1_0_0_1.window (ix2 p c) (0 : Fin 2) < ((524288 : ℕ) : ℤ)
      rw [hs0, hw0]; omega
    | ⟨1, _⟩ =>
      show 0 ≤ scatter_S524288x64_S1048576x1_S1048576x64_1_0_0_1.start (ix2 p c) idx (1 : Fin 2)
          + scatter_S524288x64_S1048576x1_S1048576x64_1_0_0_1.window (ix2 p c) (1 : Fin 2)
        ∧ scatter_S524288x64_S1048576x1_S1048576x64_1_0_0_1.start (ix2 p c) idx (1 : Fin 2)
          + scatter_S524288x64_S1048576x1_S1048576x64_1_0_0_1.window (ix2 p c) (1 : Fin 2) < ((64 : ℕ) : ℤ)
      rw [hs1, hw1]; omega

/-! ## The count scatter: where update `p` lands

One axis, inserted and named by the map: the start is row `p`'s index word read signed, the window coordinate 0. -/

/-- The start is the index word of the update's row, read signed. -/
theorem start_flat (idx : S1048576x1.Idx → BitVec 32) (p : Fin 1048576) :
    scatter_S524288_S1048576x1_S1048576_n_0_0_1.start (ix1 p) idx (0 : Fin 1) = (idx (ix2 p 0)).toInt := by
  unfold ScatterDims.start
  rw [dif_pos (show (0 : Fin 1) ∈ scatter_S524288_S1048576x1_S1048576_n_0_0_1.scatterDimsToOperandDims from
    List.mem_singleton.mpr rfl)]
  congr 2
  funext b
  refine Fin.ext ?_
  match b with
  | ⟨0, _⟩ => rfl
  | ⟨1, _⟩ => rfl

/-- The window coordinate is 0. -/
theorem window_flat (p : Fin 1048576) :
    scatter_S524288_S1048576x1_S1048576_n_0_0_1.window (ix1 p) (0 : Fin 1) = 0 := by
  unfold ScatterDims.window
  rw [dif_neg (by decide)]

/-- Every update `p` lands inside the operand, at row `seg p`. -/
theorem resultIdx_flat (idx : S1048576x1.Idx → BitVec 32) (seg : Fin 1048576 → ℕ)
    (hseg : ∀ p, idx (ix2 p 0) = BitVec.ofNat 32 (seg p)) (hlt : ∀ p, seg p < 524288) (p : Fin 1048576) :
    scatter_S524288_S1048576x1_S1048576_n_0_0_1.resultIdx? (ix1 p) idx = some (ix1 ⟨seg p, hlt p⟩) := by
  have hs0 : scatter_S524288_S1048576x1_S1048576_n_0_0_1.start (ix1 p) idx (0 : Fin 1) = (seg p : ℤ) := by
    rw [start_flat, hseg p, toInt_small _ (hlt p)]
  have hw0 := window_flat p
  have hp := hlt p
  unfold ScatterDims.resultIdx?
  rw [dif_pos]
  · congr 1
    funext a
    refine Fin.ext ?_
    match a with
    | ⟨0, _⟩ =>
      show (scatter_S524288_S1048576x1_S1048576_n_0_0_1.start (ix1 p) idx (0 : Fin 1)
        + scatter_S524288_S1048576x1_S1048576_n_0_0_1.window (ix1 p) (0 : Fin 1)).toNat = seg p
      rw [hs0, hw0]; omega
  · intro a
    match a with
    | ⟨0, _⟩ =>
      show 0 ≤ scatter_S524288_S1048576x1_S1048576_n_0_0_1.start (ix1 p) idx (0 : Fin 1)
          + scatter_S524288_S1048576x1_S1048576_n_0_0_1.window (ix1 p) (0 : Fin 1)
        ∧ scatter_S524288_S1048576x1_S1048576_n_0_0_1.start (ix1 p) idx (0 : Fin 1)
          + scatter_S524288_S1048576x1_S1048576_n_0_0_1.window (ix1 p) (0 : Fin 1) < ((524288 : ℕ) : ℤ)
      rw [hs0, hw0]; omega

/-- The 64-channel scatter-add at `(r, ch)`. -/
theorem scatter_rows (x : S524288x64.Idx → EReal) (idx : S1048576x1.Idx → BitVec 32) (upd : S1048576x64.Idx → EReal)
    (seg : Fin 1048576 → ℕ) (hseg : ∀ p, idx (ix2 p 0) = BitVec.ofNat 32 (seg p)) (hlt : ∀ p, seg p < 524288)
    (r : Fin 524288) (ch : Fin 64) :
    Ideal.hostScatterAdd scatter_S524288x64_S1048576x1_S1048576x64_1_0_0_1 x idx upd (ix2 r ch)
      = x (ix2 r ch) + ∑ p : Fin 1048576, if seg p = r.val then upd (ix2 p ch) else 0 := by
  -- update `(p, c)` lands on `(r, ch)` exactly when its row's index is `r` and its channel is `ch`
  have key : ∀ (p : Fin 1048576) (c : Fin 64),
      scatter_S524288x64_S1048576x1_S1048576x64_1_0_0_1.resultIdx? (ix2 p c) idx = some (ix2 r ch)
        ↔ (seg p = r.val ∧ c = ch) := by
    intro p c
    rw [resultIdx_rows idx seg hseg hlt p c]
    constructor
    · intro h
      have h' := Option.some.inj h
      exact ⟨congrArg Fin.val (congrFun h' (0 : Fin 2)), congrFun h' (1 : Fin 2)⟩
    · rintro ⟨h0, rfl⟩
      rw [show (⟨seg p, hlt p⟩ : Fin 524288) = r from Fin.ext h0]
  show x (ix2 r ch) + _ = _
  refine congrArg (HAdd.hAdd (x (ix2 r ch))) ?_
  -- the filtered sum as a sum over rows and channels of the update or 0, then the channel sum collapsed onto `ch`
  rw [Finset.sum_filter, sum_idx2]
  refine Finset.sum_congr rfl fun p _ => ?_
  refine (Finset.sum_congr rfl fun c _ => if_congr (key p c) rfl rfl).trans ?_
  by_cases h : seg p = r.val
  · simp [h]
  · simp [h]

/-- The count scatter-add at `r`. -/
theorem scatter_flat (x : S524288.Idx → EReal) (idx : S1048576x1.Idx → BitVec 32) (upd : S1048576.Idx → EReal)
    (seg : Fin 1048576 → ℕ) (hseg : ∀ p, idx (ix2 p 0) = BitVec.ofNat 32 (seg p)) (hlt : ∀ p, seg p < 524288)
    (r : Fin 524288) :
    Ideal.hostScatterAdd scatter_S524288_S1048576x1_S1048576_n_0_0_1 x idx upd (ix1 r)
      = x (ix1 r) + ∑ p : Fin 1048576, if seg p = r.val then upd (ix1 p) else 0 := by
  -- update `p` lands on `r` exactly when its row's index is `r`
  have key : ∀ p : Fin 1048576,
      scatter_S524288_S1048576x1_S1048576_n_0_0_1.resultIdx? (ix1 p) idx = some (ix1 r) ↔ seg p = r.val := by
    intro p
    rw [resultIdx_flat idx seg hseg hlt p]
    constructor
    · intro h
      exact congrArg Fin.val (congrFun (Option.some.inj h) (0 : Fin 1))
    · intro h0
      rw [show (⟨seg p, hlt p⟩ : Fin 524288) = r from Fin.ext h0]
  show x (ix1 r) + _ = _
  refine congrArg (HAdd.hAdd (x (ix1 r))) ?_
  rw [Finset.sum_filter, sum_idx1]
  exact Finset.sum_congr rfl fun p _ => if_congr (key p) rfl rfl

/-- Row `p`'s cloud and point. -/
def cloudOf (p : Fin 1048576) : Fin 16 := ⟨p.val / 65536, by omega⟩
def pointOf (p : Fin 1048576) : Fin 65536 := ⟨p.val % 65536, Nat.mod_lt _ (by norm_num)⟩

/-- A row is its cloud and its point, and every such pair is one row: row = cloud * 65536 + point. -/
def rowEquiv : Fin 1048576 ≃ Fin 16 × Fin 65536 where
  toFun p := (cloudOf p, pointOf p)
  invFun q := ⟨q.1.val * 65536 + q.2.val, by have := q.1.isLt; have := q.2.isLt; omega⟩
  left_inv p := by
    apply Fin.ext
    show p.val / 65536 * 65536 + p.val % 65536 = p.val
    omega
  right_inv q := by
    obtain ⟨c, n⟩ := q
    have hc := c.isLt
    have hn := n.isLt
    refine Prod.ext (Fin.ext ?_) (Fin.ext ?_)
    · show (c.val * 65536 + n.val) / 65536 = c.val
      omega
    · show (c.val * 65536 + n.val) % 65536 = n.val
      omega

/-- A sum over the rows of a quantity of the row's cloud and point is the double sum over clouds and points. -/
theorem sum_rows {M : Type*} [AddCommMonoid M] (F : Fin 16 → Fin 65536 → M) :
    ∑ p : Fin 1048576, F (cloudOf p) (pointOf p) = ∑ c : Fin 16, ∑ n : Fin 65536, F c n := by
  rw [← Fintype.sum_prod_type' (f := F)]
  exact Equiv.sum_comp rowEquiv (fun q => F q.1 q.2)

/-- Summing over rows the updates that land on row `b * 32768 + v` is the per-voxel sum. -/
theorem seg_sum (fl : Fin 16 → Fin 65536 → BitVec 32) (hfl : ∀ b n, (fl b n).toNat < 32768) (g : Fin 16 → Fin 65536 → EReal)
    (b : Fin 16) (v : Fin 32768) :
    (∑ p : Fin 1048576, if (fl (cloudOf p) (pointOf p)).toNat + (cloudOf p).val * 32768 = b.val * 32768 + v.val
        then g (cloudOf p) (pointOf p) else 0) = voxSum fl g b v := by
  have hv := v.isLt
  -- rows by cloud and point
  rw [sum_rows (fun c n => if (fl c n).toNat + c.val * 32768 = b.val * 32768 + v.val then g c n else 0)]
  -- a flat index below 32768 leaves the cloud readable off the row: only cloud `b` contributes
  rw [Finset.sum_eq_single b]
  · unfold voxSum
    refine Finset.sum_congr rfl fun n _ => ?_
    refine if_congr ?_ rfl rfl
    constructor
    · intro h
      apply BitVec.eq_of_toNat_eq
      rw [BitVec.toNat_ofNat, Nat.mod_eq_of_lt (by omega)]
      omega
    · intro h
      rw [h, BitVec.toNat_ofNat, Nat.mod_eq_of_lt (by omega)]
      omega
  · intro c _ hc
    refine Finset.sum_eq_zero fun n _ => ?_
    rw [if_neg]
    intro h
    have := hfl c n
    exact hc (Fin.ext (by omega))
  · intro h
    exact absurd (Finset.mem_univ b) h

/-- The word `31.0` in f32 denotes the real thirty-one. -/
theorem thirtyone_f32 : Ideal.ofBits .f32 0x41F80000#32 = 31 := by
  simp [Ideal.ofBits, Ideal.ieee, -EReal.coe_mul]; norm_num; rfl

/-- Clipping an extended real to [0, 31] leaves a real in [0, 31]: `⊥` goes to 0 and `⊤` to 31. -/
theorem clip_real (y : EReal) : ∃ r : ℝ, 0 ≤ r ∧ r ≤ 31 ∧ min (31 : EReal) (max 0 y) = (r : EReal) := by
  induction y using EReal.rec with
  | bot => exact ⟨0, le_refl _, by norm_num, by simp⟩
  | top => exact ⟨31, by norm_num, le_refl _, by simp; rfl⟩
  | coe x =>
    refine ⟨min 31 (max 0 x), le_min (by norm_num) (le_max_left _ _), min_le_left _ _, ?_⟩
    rw [EReal.coe_strictMono.monotone.map_min, EReal.coe_strictMono.monotone.map_max]
    rfl

/-- Rounding a real of [0, 31] half to even gives an integer of 0..31: the floor is in 0..31, and the floor 31 is
    met only at 31 itself, where the fraction is 0 and the floor is kept. -/
theorem roundHalfEven_mem (r : ℝ) (h0 : 0 ≤ r) (h1 : r ≤ 31) :
    0 ≤ Ideal.roundHalfEven r ∧ Ideal.roundHalfEven r ≤ 31 := by
  have hf0 : 0 ≤ ⌊r⌋ := Int.floor_nonneg.2 h0
  have hf1 : ⌊r⌋ ≤ 31 := by
    have h := Int.floor_le_floor h1
    rwa [show (31 : ℝ) = ((31 : ℤ) : ℝ) by norm_num, Int.floor_intCast] at h
  have hup : ¬ (r - ⌊r⌋ < 1 / 2) → ⌊r⌋ + 1 ≤ 31 := by
    intro hn
    by_contra hcon
    have h31 : ⌊r⌋ = 31 := by omega
    rw [h31] at hn
    apply hn
    push_cast
    linarith
  unfold Ideal.roundHalfEven
  simp only
  split_ifs with ha hb hc
  · exact ⟨hf0, hf1⟩
  · exact ⟨by omega, hup ha⟩
  · exact ⟨hf0, hf1⟩
  · exact ⟨by omega, hup ha⟩

/-- Converting an integer of 0..31 to a 32-bit word gives that number's word: the truncation of an integer is itself
    and the clamp to the 32-bit range does nothing. -/
theorem fptosi_small (z : ℤ) (h0 : 0 ≤ z) (h1 : z ≤ 31) :
    Ideal.fptosi 32 (((z : ℝ)) : EReal) = BitVec.ofNat 32 z.toNat := by
  have hcl : Ideal.toIntClamped (-(2 ^ (32 - 1) : Nat)) ((2 ^ (32 - 1) : Nat) - 1) (((z : ℝ)) : EReal) = z := by
    show max _ (min _ (if 0 ≤ (z : ℝ) then ⌊(z : ℝ)⌋ else ⌈(z : ℝ)⌉)) = z
    rw [if_pos (by exact_mod_cast h0), Int.floor_intCast]
    norm_num
    omega
  unfold Ideal.fptosi
  rw [hcl]
  obtain ⟨k, rfl⟩ := Int.eq_ofNat_of_zero_le h0
  simp

/-- A coordinate clipped to [0, 31], rounded half to even and converted to a 32-bit integer is one of 0..31. -/
theorem cell_word (y : EReal) : ∃ k : ℕ, k ≤ 31 ∧
    Ideal.fptosi 32 (Ideal.liftRound Ideal.roundHalfEven (min (Ideal.ofBits .f32 0x41F80000#32) (max (Ideal.ofBits .f32 0x00000000#32) y)))
      = BitVec.ofNat 32 k := by
  obtain ⟨r, h0, h1, hr⟩ := clip_real y
  obtain ⟨hz0, hz1⟩ := roundHalfEven_mem r h0 h1
  refine ⟨(Ideal.roundHalfEven r).toNat, by omega, ?_⟩
  rw [thirtyone_f32, zero_f32, hr]
  exact fptosi_small _ hz0 hz1

end Cert.VoxSpec

end
-- ==== Proof.RefValue.lean ====
/-
  The reference program's voxel result read at an entry. Entry (b, ch, i0, i1, i2) is the quotient, at row
  b * 32768 + v of the two scatter-adds (v the voxel (i0, i1, i2) flattened), of the summed features' channel ch by the
  summed ones floored at one. Row p = cloud * 65536 + point of the updates carries the point's feature (or a one) and goes
  to the row flat index + cloud * 32768; the flat index is (i * 32 + j) * 32 + k of three cells in 0..31, so below 32768,
  and the two scatter-adds at that row are the per-voxel sums: the entry is the voxel average.
-/
import proofs.«176212_j76922864272024_1_alg».proof.Defs
import proofs.«176212_j76922864272024_1_alg».proof.Proof.Gen.ReferenceIdeal.Run
import proofs.«176212_j76922864272024_1_alg».proof.Proof.Gen.ReferenceIdeal.Read
import proofs.«176212_j76922864272024_1_alg».proof.Proof.VoxSpec
import proofs.«176212_j76922864272024_1_alg».proof.Proof.ScatterSum
import Idealize.ShloMosaic.Lib.Pipeline.Value
import Idealize.ShloMosaic.Lib.ValueIdx
import Idealize.ShloMosaic.Lib.ValueLayout

noncomputable section

open scoped BigOperators

namespace Cert.ReferenceIdeal.RefValue

open Cert.ReferenceIdeal Cert.ReferenceIdeal.Gen Cert.ReferenceIdeal.Read Cert.VoxSpec
open Idealize.ShloMosaic Idealize.ShloMosaic.TcCoe Idealize.ShloMosaic.ValueIdx Idealize.SL.Sem

/-- Each of a point's three cells is a word in 0..31: the coordinate is clipped to [0, 31], rounded half to even and converted. -/
theorem cell_at (x1 : S16x65536x3.Idx → EReal) (b : Fin 16) (a : Fin 3) (n : Fin 65536) :
    ∃ k : ℕ, k ≤ 31 ∧ (val_main_v15 (F := Ideal) x1 (ix3 b a n) : BitVec 32) = BitVec.ofNat 32 k := by
  rw [val_main_v15_apply, val_main_v14_apply, val_main_v13_apply, val_main_call0_v4_apply, val_main_call0_v3_apply,
    val_main_cst_5_apply, val_main_call0_v2_apply, val_main_call0_v1_apply, val_main_call0_v0_apply, val_main_cst_4_apply]
  simp only [Ideal.hostUnary_roundeven_def, Ideal.minimumf_def, Ideal.maximumf_def, Ideal.ofBits_def]
  exact cell_word _

/-- Slice 0 of the cells, reshaped to [16, 65536], at (b, n) is the cell (b, 0, n); -/
theorem slice0_at (x1 : S16x65536x3.Idx → EReal) (b : Fin 16) (n : Fin 65536) :
    (val_main_v17 (F := Ideal) x1 (ix2 b n) : BitVec 32) = val_main_v15 (F := Ideal) x1 (ix3 b 0 n) := by
  rw [val_main_v17_apply, val_main_v16_apply]
  refine congrArg _ (funext fun a => Fin.ext ?_)
  have hb := b.isLt; have hn := n.isLt
  match a with
  | ⟨0, _⟩ => show (b.val * 65536 + n.val) / 65536 = b.val; omega
  | ⟨1, _⟩ => rfl
  | ⟨2, _⟩ => show (b.val * 65536 + n.val) % 65536 = n.val; omega
/-- slice 1 the cell (b, 1, n); -/
theorem slice1_at (x1 : S16x65536x3.Idx → EReal) (b : Fin 16) (n : Fin 65536) :
    (val_main_v21 (F := Ideal) x1 (ix2 b n) : BitVec 32) = val_main_v15 (F := Ideal) x1 (ix3 b 1 n) := by
  rw [val_main_v21_apply, val_main_v20_apply]
  refine congrArg _ (funext fun a => Fin.ext ?_)
  have hb := b.isLt; have hn := n.isLt
  match a with
  | ⟨0, _⟩ => show (b.val * 65536 + n.val) / 65536 = b.val; omega
  | ⟨1, _⟩ => rfl
  | ⟨2, _⟩ => show (b.val * 65536 + n.val) % 65536 = n.val; omega
/-- slice 2 the cell (b, 2, n). -/
theorem slice2_at (x1 : S16x65536x3.Idx → EReal) (b : Fin 16) (n : Fin 65536) :
    (val_main_v26 (F := Ideal) x1 (ix2 b n) : BitVec 32) = val_main_v15 (F := Ideal) x1 (ix3 b 2 n) := by
  rw [val_main_v26_apply, val_main_v25_apply]
  refine congrArg _ (funext fun a => Fin.ext ?_)
  have hb := b.isLt; have hn := n.isLt
  match a with
  | ⟨0, _⟩ => show (b.val * 65536 + n.val) / 65536 = b.val; omega
  | ⟨1, _⟩ => rfl
  | ⟨2, _⟩ => show (b.val * 65536 + n.val) % 65536 = n.val; omega

/-- The flat voxel index of every point is below 32768. -/
theorem flat_lt (x1 : S16x65536x3.Idx → EReal) (b : Fin 16) (n : Fin 65536) :
    (val_main_v27 (F := Ideal) x1 (ix2 b n) : BitVec 32).toNat < 32768 := by
  obtain ⟨k0, h0, e0⟩ := cell_at x1 b 0 n
  obtain ⟨k1, h1, e1⟩ := cell_at x1 b 1 n
  obtain ⟨k2, h2, e2⟩ := cell_at x1 b 2 n
  rw [val_main_v27_apply, val_main_v24_apply, val_main_v22_apply, val_main_v19_apply, val_main_v18_apply, val_main_c_apply,
    val_main_v23_apply, val_main_c_6_apply, slice0_at, slice1_at, slice2_at, e0, e1, e2]
  show ((BitVec.ofNat 32 k0 * 32#32 + BitVec.ofNat 32 k1) * 32#32 + BitVec.ofNat 32 k2).toNat < 32768
  simp only [BitVec.toNat_add, BitVec.toNat_mul, BitVec.toNat_ofNat]
  omega

/-- Row `b * 32768 + v` of the two scatter results: cloud `b`'s voxel `v`. -/
def rowOf (b : Fin 16) (v : Fin 32768) : Fin 524288 := ⟨b.val * 32768 + v.val, by have := b.isLt; have := v.isLt; omega⟩

/-- The row update row `p` goes to: its point's flat voxel index plus its cloud's offset. -/
def segOf (x1 : S16x65536x3.Idx → EReal) (p : Fin 1048576) : ℕ :=
  (val_main_v27 (F := Ideal) x1 (ix2 (cloudOf p) (pointOf p)) : BitVec 32).toNat + (cloudOf p).val * 32768

/-- That row is one of the 524288 rows. -/
theorem segOf_lt (x1 : S16x65536x3.Idx → EReal) (p : Fin 1048576) : segOf x1 p < 524288 := by
  have h := flat_lt x1 (cloudOf p) (pointOf p)
  have hc := (cloudOf p).isLt
  unfold segOf; omega

/-- Row `p`, channel `ch` of the flattened transposed features is the feature of `p`'s cloud and point. -/
theorem feat_row (x0 : S16x64x65536.Idx → EReal) (p : Fin 1048576) (ch : Fin 64) :
    (val_main_v36 (F := Ideal) x0 (ix2 p ch) : EReal) = x0 (ix3 (cloudOf p) ch (pointOf p)) := by
  rw [val_main_v36_apply, val_main_v35_apply]
  refine congrArg x0 (funext fun a => Fin.ext ?_)
  have hp := p.isLt; have hch := ch.isLt
  match a with
  | ⟨0, _⟩ => show (p.val * 64 + ch.val) / 4194304 = p.val / 65536; omega
  | ⟨1, _⟩ => show (p.val * 64 + ch.val) % 64 = ch.val; omega
  | ⟨2, _⟩ => show (p.val * 64 + ch.val) / 64 % 65536 = p.val % 65536; omega

/-- The cloud offset at (b, n): the word of `b` times 32768. -/
theorem offset_at (b : Fin 16) (n : Fin 65536) :
    (val_main_v32 (F := Ideal) (ix2 b n) : BitVec 32) = BitVec.ofNat 32 b.val * 32768#32 := by
  rw [val_main_v32_apply, val_main_v31_apply, val_main_v29_apply, val_main_v28_apply, val_main_v30_apply, val_main_c_7_apply]
  rfl

/-- A flat index below 32768 plus a cloud's offset does not wrap: the word of the sum. -/
theorem word_add_offset (w : BitVec 32) (hw : w.toNat < 32768) (c : ℕ) (hc : c < 16) :
    w + BitVec.ofNat 32 c * 32768#32 = BitVec.ofNat 32 (w.toNat + c * 32768) := by
  refine BitVec.eq_of_toNat_eq ?_
  simp only [BitVec.toNat_add, BitVec.toNat_mul, BitVec.toNat_ofNat]
  omega

/-- The flattened index array at row `p` is the word of that row: the flat index plus `cloud * 32768`, with no wrap. -/
theorem seg_word (x1 : S16x65536x3.Idx → EReal) (p : Fin 1048576) :
    (val_main_v34 (F := Ideal) x1 (ix1 p) : BitVec 32) = BitVec.ofNat 32 (segOf x1 p) := by
  have hidx : idx_main_v34 (ix1 p) = ix2 (cloudOf p) (pointOf p) := by
    funext a; refine Fin.ext ?_
    match a with
    | ⟨0, _⟩ => rfl
    | ⟨1, _⟩ => rfl
  rw [val_main_v34_apply, hidx, val_main_v33_apply, offset_at]
  exact word_add_offset _ (flat_lt x1 (cloudOf p) (pointOf p)) _ (cloudOf p).isLt

/-- The index column of the feature scatter at row `p` is the word of `p`'s row, -/
theorem seg_col (x1 : S16x65536x3.Idx → EReal) (p : Fin 1048576) :
    (val_main_v38 (F := Ideal) x1 (ix2 p 0) : BitVec 32) = BitVec.ofNat 32 (segOf x1 p) := by
  have hidx : idx_main_v38 (ix2 p (0 : Fin 1)) = ix1 p := funext fun a => Fin.ext (by match a with | ⟨0, _⟩ => rfl)
  rw [val_main_v38_apply, hidx]
  exact seg_word x1 p
/-- and so is the ones scatter's. -/
theorem seg_col' (x1 : S16x65536x3.Idx → EReal) (p : Fin 1048576) :
    (val_main_v42 (F := Ideal) x1 (ix2 p 0) : BitVec 32) = BitVec.ofNat 32 (segOf x1 p) := by
  have hidx : idx_main_v42 (ix2 p (0 : Fin 1)) = ix1 p := funext fun a => Fin.ext (by match a with | ⟨0, _⟩ => rfl)
  rw [val_main_v42_apply, hidx]
  exact seg_word x1 p

/-- At the ideal instance the feature scatter is the exact scatter-add of its three stages, -/
theorem feat_scatter_eq (x0 : S16x64x65536.Idx → EReal) (x1 : S16x65536x3.Idx → EReal) :
    (val_main_v39 (F := Ideal) x0 x1 : S524288x64.Idx → EReal)
      = Ideal.hostScatterAdd scatter_S524288x64_S1048576x1_S1048576x64_1_0_0_1 (val_main_v37 (F := Ideal))
          (val_main_v38 (F := Ideal) x1) (val_main_v36 (F := Ideal) x0) := rfl
/-- and so is the ones scatter. -/
theorem ones_scatter_eq (x1 : S16x65536x3.Idx → EReal) :
    (val_main_v43 (F := Ideal) x1 : S524288.Idx → EReal)
      = Ideal.hostScatterAdd scatter_S524288_S1048576x1_S1048576_n_0_0_1 (val_main_v41 (F := Ideal))
          (val_main_v42 (F := Ideal) x1) (val_main_v40 (F := Ideal)) := rfl

/-- The feature scatter-add at row `b * 32768 + v`, channel `ch`: the per-voxel sum of the channel. -/
theorem sum_rows (x0 : S16x64x65536.Idx → EReal) (x1 : S16x65536x3.Idx → EReal) (b : Fin 16) (ch : Fin 64) (v : Fin 32768) :
    (val_main_v39 (F := Ideal) x0 x1 (ix2 (rowOf b v) ch) : EReal)
      = voxSum (fun b n => (val_main_v27 (F := Ideal) x1 : S16x65536.Idx → BitVec 32) (ix2 b n)) (fun b n => x0 (ix3 b ch n)) b v := by
  rw [feat_scatter_eq, scatter_rows (val_main_v37 (F := Ideal)) (val_main_v38 (F := Ideal) x1) (val_main_v36 (F := Ideal) x0)
      (segOf x1) (seg_col x1) (segOf_lt x1) (rowOf b v) ch,
    val_main_v37_apply, val_main_cst_8_apply, Ideal.ofBits_def, zero_f32, zero_add,
    ← seg_sum (fun b n => (val_main_v27 (F := Ideal) x1 : S16x65536.Idx → BitVec 32) (ix2 b n)) (flat_lt x1) (fun b n => x0 (ix3 b ch n)) b v]
  refine Finset.sum_congr rfl fun p _ => ?_
  rw [feat_row]
  rfl

/-- The ones scatter-add at row `b * 32768 + v`: the per-voxel count. -/
theorem count_rows (x1 : S16x65536x3.Idx → EReal) (b : Fin 16) (v : Fin 32768) :
    (val_main_v43 (F := Ideal) x1 (ix1 (rowOf b v)) : EReal)
      = voxSum (fun b n => (val_main_v27 (F := Ideal) x1 : S16x65536.Idx → BitVec 32) (ix2 b n)) (fun _ _ => 1) b v := by
  rw [ones_scatter_eq, scatter_flat (val_main_v41 (F := Ideal)) (val_main_v42 (F := Ideal) x1) (val_main_v40 (F := Ideal))
      (segOf x1) (seg_col' x1) (segOf_lt x1) (rowOf b v),
    val_main_v41_apply, val_main_cst_10_apply, Ideal.ofBits_def, zero_f32, zero_add,
    ← seg_sum (fun b n => (val_main_v27 (F := Ideal) x1 : S16x65536.Idx → BitVec 32) (ix2 b n)) (flat_lt x1) (fun _ _ => 1) b v]
  refine Finset.sum_congr rfl fun p _ => ?_
  rw [val_main_v40_apply, val_main_cst_9_apply, Ideal.ofBits_def, one_f32]
  rfl

/-- Entry (b, ch, i0, i1, i2) of the result is row `b * 32768 + voxOf i0 i1 i2`, column `ch` of the quotient: the
    reshape's row-major arithmetic under the transpose. -/
theorem out_row (x0 : S16x64x65536.Idx → EReal) (x1 : S16x65536x3.Idx → EReal) (b : Fin 16) (ch : Fin 64) (i0 i1 i2 : Fin 32) :
    (val_main_v50 (F := Ideal) x0 x1 (ix5 b ch i0 i1 i2) : EReal)
      = val_main_v48 (F := Ideal) x0 x1 (ix2 (rowOf b (voxOf i0 i1 i2)) ch) := by
  rw [val_main_v50_apply, val_main_v49_apply]
  refine congrArg _ (funext fun a => Fin.ext ?_)
  have hb := b.isLt; have hch := ch.isLt; have h0 := i0.isLt; have h1 := i1.isLt; have h2 := i2.isLt
  match a with
  | ⟨0, _⟩ =>
    show ((((b.val * 32 + i0.val) * 32 + i1.val) * 32 + i2.val) * 64 + ch.val) / 64
      = b.val * 32768 + ((i0.val * 32 + i1.val) * 32 + i2.val)
    omega
  | ⟨1, _⟩ =>
    show ((((b.val * 32 + i0.val) * 32 + i1.val) * 32 + i2.val) * 64 + ch.val) % 64 = ch.val
    omega

/-- The divisor at (r, ch): row `r`'s count floored at one. -/
theorem floor_row (x1 : S16x65536x3.Idx → EReal) (r : Fin 524288) (ch : Fin 64) :
    (val_main_v47 (F := Ideal) x1 (ix2 r ch) : EReal) = max (val_main_v43 (F := Ideal) x1 (ix1 r)) 1 := by
  have hidx : idx_main_v46 (idx_main_v47 (ix2 r ch)) = ix1 r := funext fun a => Fin.ext (by match a with | ⟨0, _⟩ => rfl)
  rw [val_main_v47_apply, val_main_v46_apply, hidx, val_main_v45_apply, val_main_v44_apply, val_main_cst_11_apply,
    Ideal.maximumf_def, Ideal.ofBits_def, one_f32]

/-- The reference's voxel result, entry by entry, is the voxel average. -/
theorem ref_vox (x0 : S16x64x65536.Idx → EReal) (x1 : S16x65536x3.Idx → EReal) (b : Fin 16) (ch : Fin 64) (i0 i1 i2 : Fin 32) :
    (val_main_v50 (F := Ideal) x0 x1 : S16x64x32x32x32.Idx → EReal) (ix5 b ch i0 i1 i2)
      = voxAvg (fun b ch n => x0 (ix3 b ch n)) (fun b n => (val_main_v27 (F := Ideal) x1 : S16x65536.Idx → BitVec 32) (ix2 b n)) b ch (voxOf i0 i1 i2) := by
  rw [out_row, val_main_v48_apply, Ideal.hostDivf_def, floor_row, sum_rows, count_rows]
  rfl

end Cert.ReferenceIdeal.RefValue

end
-- ==== Proof.lean ====
/-
  The certificate. Both programs average, per voxel of a 32 x 32 x 32 grid, the features of the points that fall in it.
  The reference scatter-adds each point's 64 features, and a one, into the row of its cloud and voxel, and divides the
  sums by the counts floored at one. The kernel widens each point's features by a column of ones, multiplies, tile by
  tile of 4096 points, the 0/1 matrix "point j falls in voxel r" by the widened features, accumulates the sixteen
  products of a cloud in a scratch buffer, and divides channel ch by channel 64 floored at one. On the extended reals
  a 0/1-weighted sum over all points is the sum over the points of that voxel, sums may be split into tiles and
  regrouped freely, and a change of float format is the identity: the two results are the same function of the
  arguments, entry by entry, with no use of the inputs' finiteness. The voxel coordinates, the second result, are
  computed by the same host operations in both programs. Each program runs to the end leaving its arguments alone;
  the idealization rewrote nothing.
-/
import proofs.«176212_j76922864272024_1_alg».proof.Defs
import proofs.«176212_j76922864272024_1_alg».proof.Proof.Gen.Kernel
import proofs.«176212_j76922864272024_1_alg».proof.Proof.Gen.KernelIdeal
import proofs.«176212_j76922864272024_1_alg».proof.Proof.Gen.ReferenceIdeal
import proofs.«176212_j76922864272024_1_alg».proof.Proof.Gen.Pre_finite_inputs
import proofs.«176212_j76922864272024_1_alg».proof.Proof.Gen.ReferenceIdeal.Run
import proofs.«176212_j76922864272024_1_alg».proof.Proof.Gen.ReferenceIdeal.Read
import proofs.«176212_j76922864272024_1_alg».proof.Proof.BitsFrame
import proofs.«176212_j76922864272024_1_alg».proof.Proof.IdealFrame
import proofs.«176212_j76922864272024_1_alg».proof.Proof.IdealAcc
import proofs.«176212_j76922864272024_1_alg».proof.Proof.IdealHost
import proofs.«176212_j76922864272024_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem Cert.VoxSpec

section KernelValue

open Cert.KernelIdeal Cert.KernelIdeal.Gen Cert.KernelIdeal.Vox

variable (m : (ℓ : Loc nD τ sig) → Buf (Elt Ideal) ℓ)

/-- The kernel program's voxel result is the reference's function of the same arguments: entry (b, ch, i0, i1, i2) is
    the per-voxel sum of channel ch over the per-voxel count floored at one, the widened features' channel 64 being
    the constant one and their channel ch < 64 the feature itself. -/
theorem kernel_vox (c : Dev nD) :
    (Pipeline.afterTail₀ cfgs (dats (F := Ideal) m) 0 (V0 m) [hostOps1] c main_v44 : S16x64x32x32x32.Idx → EReal)
      = Cert.ReferenceIdeal.Read.val_main_v50 (F := Ideal) (m ((c : Thread nD τ).loc main_arg0)) (m ((c : Thread nD τ).loc main_arg1)) := by
  funext i
  obtain ⟨b, ch, i0, i1, i2, rfl⟩ : ∃ (b : Fin 16) (ch : Fin 64) (i0 i1 i2 : Fin 32), i = ix5 b ch i0 i1 i2 :=
    ⟨i 0, i 1, i 2, i 3, i 4, eq_ix5 i⟩
  rw [Cert.KernelIdeal.VoxHost.tail_vox, Cert.ReferenceIdeal.RefValue.ref_vox,
    Cert.KernelIdeal.VoxValue.sums_eq, Cert.KernelIdeal.VoxValue.sums_eq]
  unfold voxAvg
  have hfl : (fun (b : Fin 16) (n : Fin 65536) => (V m c main_v28 : S16x1x65536.Idx → BitVec 32) (ix3 b 0 n))
      = fun b n => (Cert.ReferenceIdeal.Read.val_main_v27 (F := Ideal) (m ((c : Thread nD τ).loc main_arg1)) : S16x65536.Idx → BitVec 32) (ix2 b n) :=
    funext fun b => funext fun n => Cert.KernelIdeal.VoxHost.entry_idx m c b n
  have hfeat : (fun (b : Fin 16) (n : Fin 65536) => (V m c main_v33 : S16x65536x128.Idx → EReal) (ix3 b n (⟨ch.val, by omega⟩ : Fin 128)))
      = fun b n => (m ((c : Thread nD τ).loc main_arg0) : S16x64x65536.Idx → EReal) (ix3 b ch n) :=
    funext fun b => funext fun n => by
      rw [Cert.KernelIdeal.VoxHost.entry_feat, dif_pos (show ch.val < 64 from ch.isLt)]
  have hone : (fun (b : Fin 16) (n : Fin 65536) => (V m c main_v33 : S16x65536x128.Idx → EReal) (ix3 b n (⟨64, by omega⟩ : Fin 128)))
      = fun _ _ => (1 : EReal) :=
    funext fun b => funext fun n => by
      rw [Cert.KernelIdeal.VoxHost.entry_feat, dif_neg (by decide : ¬ (64 < 64)), if_pos rfl]
  rw [hfl, hfeat, hone]

/-- The kernel program's voxel coordinates are the reference's function of the points. -/
theorem kernel_coords (c : Dev nD) :
    (Pipeline.afterTail₀ cfgs (dats (F := Ideal) m) 0 (V0 m) [hostOps1] c main_v13 : S16x3x65536.Idx → EReal)
      = Cert.ReferenceIdeal.Read.val_main_v13 (F := Ideal) (m ((c : Thread nD τ).loc main_arg1)) :=
  (W_main_v13 m (dats m) c).trans (Cert.KernelIdeal.VoxHost.entry_coords m c)

end KernelValue

/-! ## The claims -/

theorem frame_k : Cert.frame_Kernel := fun m ρ _ => Cert.Kernel.Vox.frame m ρ
theorem frame_ki : Cert.frame_KernelIdeal := fun m ρ _ => Cert.KernelIdeal.Vox.frame m ρ
/-- The reference's frame is its run with the two results dropped. -/
theorem frame_ri : Cert.frame_ReferenceIdeal := fun m ρ _ =>
  (θ_run Cert.ReferenceIdeal.defs _ _).mono (fun _ h c => ⟨(h c).2.2.1, (h c).2.2.2⟩) (Cert.ReferenceIdeal.Value.run (F := Ideal) m ρ)

/-- The idealization rewrote no operation. -/
theorem preserves : Cert.preserves_Kernel_KernelIdeal := trivial

/-- From memories that agree on the arguments both programs end with the voxel averages and the voxel coordinates as
    the same functions of the arguments. -/
theorem algebraic : Cert.algebraic_KernelIdeal_ReferenceIdeal := by
  intro m ρ m' ρ' _ hagree
  refine ⟨fun c => Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v13 (F := Ideal) (m ((c.tc : Thread Cert.KernelIdeal.nD Cert.KernelIdeal.τ).loc Cert.KernelIdeal.main_arg1)), ?_, ?_⟩
  · refine (θ_run Cert.KernelIdeal.defs _ _).mono (fun _ h c => ⟨?_, ?_, ?_, ?_⟩) (Cert.KernelIdeal.Vox.run_main (F := Ideal) m ρ)
    · exact ((h c).2 Cert.KernelIdeal.main_v44 (Pipeline.mem_restRefs_of Cert.KernelIdeal.main_v44 (by decide) (by decide))).trans (kernel_vox m c)
    · exact ((h c).2 Cert.KernelIdeal.main_v13 (Pipeline.mem_restRefs_of Cert.KernelIdeal.main_v13 (by decide) (by decide))).trans (kernel_coords m c)
    · exact ((h c).2 Cert.KernelIdeal.main_arg0 (Pipeline.mem_restRefs_of Cert.KernelIdeal.main_arg0 (by decide) (by decide))).trans (Cert.KernelIdeal.Vox.W_main_arg0 m _ c)
    · exact ((h c).2 Cert.KernelIdeal.main_arg1 (Pipeline.mem_restRefs_of Cert.KernelIdeal.main_arg1 (by decide) (by decide))).trans (Cert.KernelIdeal.Vox.W_main_arg1 m _ c)
  · refine (θ_run Cert.ReferenceIdeal.defs _ _).mono (fun _ h c => ⟨?_, ?_, (h c).2.2.1, (h c).2.2.2⟩) (Cert.ReferenceIdeal.Value.run (F := Ideal) m' ρ')
    · rw [(h c).1, Cert.ReferenceIdeal.Read.val_main_v50_eq, (hagree c).1, (hagree c).2]
    · rw [(h c).2.1, Cert.ReferenceIdeal.Read.val_main_v13_eq, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
